-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x8 : Shape := ⟨2, ![100000, 8]⟩
abbrev S2x3200000 : Shape := ⟨2, ![2, 3200000]⟩
abbrev S3200000x8 : Shape := ⟨2, ![3200000, 8]⟩
abbrev S256x256 : Shape := ⟨2, ![256, 256]⟩
abbrev S256 : Shape := ⟨1, ![256]⟩
abbrev S256x5 : Shape := ⟨2, ![256, 5]⟩
abbrev S5 : Shape := ⟨1, ![5]⟩
abbrev S160x256 : Shape := ⟨2, ![160, 256]⟩
abbrev S256x1 : Shape := ⟨2, ![256, 1]⟩
abbrev S1 : Shape := ⟨1, ![1]⟩
abbrev S_ : Shape := ⟨0, ![]⟩
abbrev S1x3200000 : Shape := ⟨2, ![1, 3200000]⟩
abbrev S3200000 : Shape := ⟨1, ![3200000]⟩

class Facts : Prop where
  bcast_S_S100000x8 : S_.BroadcastsInDim S100000x8 (![] : Fin 0 → Fin S100000x8.rank)
  reducesTo_S100000x8_S_d0_1 : S100000x8.ReducesTo [0, 1] S_
  h_S_ : 0 < S_.numel
  bcast_S_S3200000x8 : S_.BroadcastsInDim S3200000x8 (![] : Fin 0 → Fin S3200000x8.rank)
  reducesTo_S3200000x8_S_d0_1 : S3200000x8.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x5 : S_.BroadcastsInDim S256x5 (![] : Fin 0 → Fin S256x5.rank)
  reducesTo_S256x5_S_d0_1 : S256x5.ReducesTo [0, 1] S_
  bcast_S_S5 : S_.BroadcastsInDim S5 (![] : Fin 0 → Fin S5.rank)
  reducesTo_S5_S_d0 : S5.ReducesTo [0] S_
  bcast_S_S160x256 : S_.BroadcastsInDim S160x256 (![] : Fin 0 → Fin S160x256.rank)
  reducesTo_S160x256_S_d0_1 : S160x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  slices_S2x3200000_S1x3200000_1_0 : S2x3200000.Slices ![1, 0] S1x3200000
  shapeCasts_S1x3200000_S3200000 : S1x3200000.ShapeCasts S3200000
  bcast_S_S3200000 : S_.BroadcastsInDim S3200000 (![] : Fin 0 → Fin S3200000.rank)
  reducesTo_S3200000_S_d0 : S3200000.ReducesTo [0] S_

variable [Facts]

def fn_part5 {F : FTy → Type} [FloatOps F] (main_arg1 : IVec S2x3200000 32) (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  let main_v89 : IVec S1x3200000 32 := (extractStridedSlice S1x3200000 ![1, 0] · slices_S2x3200000_S1x3200000_1_0) main_arg1
  let main_v90 : IVec S3200000 32 := shapeCast S3200000 main_v89 shapeCasts_S1x3200000_S3200000
  let main_c_34 : IVec S_ 32 := constantI S_ 32 4294867296#32
  let main_v91 : IVec S3200000 32 := broadcastInDim S3200000 ![] bcast_S_S3200000 main_c_34
  let main_v92 : IVec S3200000 1 := cmpi .sge main_v90 main_v91
  let main_v93 : IVec S1x3200000 32 := (extractStridedSlice S1x3200000 ![1, 0] · slices_S2x3200000_S1x3200000_1_0) main_arg1
  let main_v94 : IVec S3200000 32 := shapeCast S3200000 main_v93 shapeCasts_S1x3200000_S3200000
  let main_c_35 : IVec S_ 32 := constantI S_ 32 100000#32
  let main_v95 : IVec S3200000 32 := broadcastInDim S3200000 ![] bcast_S_S3200000 main_c_35
  let main_v96 : IVec S3200000 1 := cmpi .slt main_v94 main_v95
  let main_v97 : IVec S3200000 1 := andi main_v92 main_v96
  let main_c_36 : IVec S_ 1 := constantI S_ 1 1#1
  let main_v98 : IVec S_ 1 := (fun x v => Host.reduce IntOp.andi x v reducesTo_S3200000_S_d0 h_S_) main_v97 main_c_36
  let main_v99 : IVec S_ 1 := andi main_v88 main_v98
  main_v99

def fn_part4 {F : FTy → Type} [FloatOps F] (main_arg1 : IVec S2x3200000 32) (main_arg15 : FVec F S256x256 .f32) (main_arg16 : FVec F S256 .f32) (main_arg17 : FVec F S256x1 .f32) (main_arg18 : FVec F S1 .f32) (main_v63 : IVec S_ 1) (main_v67 : IVec S_ 1) : IVec S_ 1 :=
  let main_v68 : IVec S_ 1 := andi main_v63 main_v67
  let main_v69 : FVec F S256x256 .f32 := Host.absf main_arg15
  let main_cst_26 : FVec F S_ .f32 := constant S_ .f32 0x7F800000#32
  let main_v70 : FVec F S256x256 .f32 := broadcastInDim S256x256 ![] bcast_S_S256x256 main_cst_26
  let main_v71 : IVec S256x256 1 := cmpf .olt main_v69 main_v70
  let main_c_27 : IVec S_ 1 := constantI S_ 1 1#1
  let main_v72 : IVec S_ 1 := (fun x v => Host.reduce IntOp.andi x v reducesTo_S256x256_S_d0_1 h_S_) main_v71 main_c_27
  let main_v73 : IVec S_ 1 := andi main_v68 main_v72
  let main_v74 : FVec F S256 .f32 := Host.absf main_arg16
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256x1 .f32 := Host.absf main_arg17
  let main_cst_30 : FVec F S_ .f32 := constant S_ .f32 0x7F800000#32
  let main_v80 : FVec F S256x1 .f32 := broadcastInDim S256x1 ![] bcast_S_S256x1 main_cst_30
  let main_v81 : IVec S256x1 1 := cmpf .olt main_v79 main_v80
  let main_c_31 : IVec S_ 1 := constantI S_ 1 1#1
  let main_v82 : IVec S_ 1 := (fun x v => Host.reduce IntOp.andi x v reducesTo_S256x1_S_d0_1 h_S_) main_v81 main_c_31
  let main_v83 : IVec S_ 1 := andi main_v78 main_v82
  let main_v84 : FVec F S1 .f32 := Host.absf main_arg18
  let main_cst_32 : FVec F S_ .f32 := constant S_ .f32 0x7F800000#32
  fn_part5 (F := F) main_arg1 main_v83 main_v84 main_cst_32

def fn_part3 {F : FTy → Type} [FloatOps F] (main_arg1 : IVec S2x3200000 32) (main_arg12 : FVec F S256 .f32) (main_arg13 : FVec F S256x256 .f32) (main_arg14 : FVec F S256 .f32) (main_arg15 : FVec F S256x256 .f32) (main_arg16 : FVec F S256 .f32) (main_arg17 : FVec F S256x1 .f32) (main_arg18 : FVec F S1 .f32) (main_v48 : IVec S_ 1) (main_v49 : FVec F S160x256 .f32) (main_v50 : FVec F S160x256 .f32) : IVec S_ 1 :=
  let main_v51 : IVec S160x256 1 := cmpf .olt main_v49 main_v50
  let main_c_19 : IVec S_ 1 := constantI S_ 1 1#1
  let main_v52 : IVec S_ 1 := (fun x v => Host.reduce IntOp.andi x v reducesTo_S160x256_S_d0_1 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x256 .f32 := Host.absf main_arg13
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg14
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg1 main_arg15 main_arg16 main_arg17 main_arg18 main_v63 main_v67

def fn_part2 {F : FTy → Type} [FloatOps F] (main_arg1 : IVec S2x3200000 32) (main_arg8 : FVec F S256 .f32) (main_arg9 : FVec F S256x5 .f32) (main_arg10 : FVec F S5 .f32) (main_arg11 : FVec F S160x256 .f32) (main_arg12 : FVec F S256 .f32) (main_arg13 : FVec F S256x256 .f32) (main_arg14 : FVec F S256 .f32) (main_arg15 : FVec F S256x256 .f32) (main_arg16 : FVec F S256 .f32) (main_arg17 : FVec F S256x1 .f32) (main_arg18 : FVec F S1 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x5 .f32 := Host.absf main_arg9
  let main_cst_14 : FVec F S_ .f32 := constant S_ .f32 0x7F800000#32
  let main_v40 : FVec F S256x5 .f32 := broadcastInDim S256x5 ![] bcast_S_S256x5 main_cst_14
  let main_v41 : IVec S256x5 1 := cmpf .olt main_v39 main_v40
  let main_c_15 : IVec S_ 1 := constantI S_ 1 1#1
  let main_v42 : IVec S_ 1 := (fun x v => Host.reduce IntOp.andi x v reducesTo_S256x5_S_d0_1 h_S_) main_v41 main_c_15
  let main_v43 : IVec S_ 1 := andi main_v38 main_v42
  let main_v44 : FVec F S5 .f32 := Host.absf main_arg10
  let main_cst_16 : FVec F S_ .f32 := constant S_ .f32 0x7F800000#32
  let main_v45 : FVec F S5 .f32 := broadcastInDim S5 ![] bcast_S_S5 main_cst_16
  let main_v46 : IVec S5 1 := cmpf .olt main_v44 main_v45
  let main_c_17 : IVec S_ 1 := constantI S_ 1 1#1
  let main_v47 : IVec S_ 1 := (fun x v => Host.reduce IntOp.andi x v reducesTo_S5_S_d0 h_S_) main_v46 main_c_17
  let main_v48 : IVec S_ 1 := andi main_v43 main_v47
  let main_v49 : FVec F S160x256 .f32 := Host.absf main_arg11
  let main_cst_18 : FVec F S_ .f32 := constant S_ .f32 0x7F800000#32
  let main_v50 : FVec F S160x256 .f32 := broadcastInDim S160x256 ![] bcast_S_S160x256 main_cst_18
  fn_part3 (F := F) main_arg1 main_arg12 main_arg13 main_arg14 main_arg15 main_arg16 main_arg17 main_arg18 main_v48 main_v49 main_v50

def fn_part1 {F : FTy → Type} [FloatOps F] (main_arg1 : IVec S2x3200000 32) (main_arg5 : FVec F S256x256 .f32) (main_arg6 : FVec F S256 .f32) (main_arg7 : FVec F S256x256 .f32) (main_arg8 : FVec F S256 .f32) (main_arg9 : FVec F S256x5 .f32) (main_arg10 : FVec F S5 .f32) (main_arg11 : FVec F S160x256 .f32) (main_arg12 : FVec F S256 .f32) (main_arg13 : FVec F S256x256 .f32) (main_arg14 : FVec F S256 .f32) (main_arg15 : FVec F S256x256 .f32) (main_arg16 : FVec F S256 .f32) (main_arg17 : FVec F S256x1 .f32) (main_arg18 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg1 main_arg8 main_arg9 main_arg10 main_arg11 main_arg12 main_arg13 main_arg14 main_arg15 main_arg16 main_arg17 main_arg18 main_v33

def fn {F : FTy → Type} [FloatOps F] (main_arg0 : FVec F S100000x8 .f32) (main_arg1 : IVec S2x3200000 32) (main_arg2 : FVec F S3200000x8 .f32) (main_arg3 : FVec F S256x256 .f32) (main_arg4 : FVec F S256 .f32) (main_arg5 : FVec F S256x256 .f32) (main_arg6 : FVec F S256 .f32) (main_arg7 : FVec F S256x256 .f32) (main_arg8 : FVec F S256 .f32) (main_arg9 : FVec F S256x5 .f32) (main_arg10 : FVec F S5 .f32) (main_arg11 : FVec F S160x256 .f32) (main_arg12 : FVec F S256 .f32) (main_arg13 : FVec F S256x256 .f32) (main_arg14 : FVec F S256 .f32) (main_arg15 : FVec F S256x256 .f32) (main_arg16 : FVec F S256 .f32) (main_arg17 : FVec F S256x1 .f32) (main_arg18 : FVec F S1 .f32) : IVec S_ 1 :=
  let main_v0 : FVec F S100000x8 .f32 := Host.absf main_arg0
  let main_cst : FVec F S_ .f32 := constant S_ .f32 0x7F800000#32
  let main_v1 : FVec F S100000x8 .f32 := broadcastInDim S100000x8 ![] bcast_S_S100000x8 main_cst
  let main_v2 : IVec S100000x8 1 := cmpf .olt main_v0 main_v1
  let main_c : IVec S_ 1 := constantI S_ 1 1#1
  let main_v3 : IVec S_ 1 := (fun x v => Host.reduce IntOp.andi x v reducesTo_S100000x8_S_d0_1 h_S_) main_v2 main_c
  let main_v4 : FVec F S3200000x8 .f32 := Host.absf main_arg2
  let main_cst_0 : FVec F S_ .f32 := constant S_ .f32 0x7F800000#32
  let main_v5 : FVec F S3200000x8 .f32 := broadcastInDim S3200000x8 ![] bcast_S_S3200000x8 main_cst_0
  let main_v6 : IVec S3200000x8 1 := cmpf .olt main_v4 main_v5
  let main_c_1 : IVec S_ 1 := constantI S_ 1 1#1
  let main_v7 : IVec S_ 1 := (fun x v => Host.reduce IntOp.andi x v reducesTo_S3200000x8_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_arg5 main_arg6 main_arg7 main_arg8 main_arg9 main_arg10 main_arg11 main_arg12 main_arg13 main_arg14 main_arg15 main_arg16 main_arg17 main_arg18 main_v13 main_v16
-- ==== Kernel.lean ====
abbrev S100000x8 : Shape := ⟨2, ![100000, 8]⟩
abbrev S2x3200000 : Shape := ⟨2, ![2, 3200000]⟩
abbrev S3200000x8 : Shape := ⟨2, ![3200000, 8]⟩
abbrev S256x256 : Shape := ⟨2, ![256, 256]⟩
abbrev S256 : Shape := ⟨1, ![256]⟩
abbrev S256x5 : Shape := ⟨2, ![256, 5]⟩
abbrev S5 : Shape := ⟨1, ![5]⟩
abbrev S160x256 : Shape := ⟨2, ![160, 256]⟩
abbrev S256x1 : Shape := ⟨2, ![256, 1]⟩
abbrev S1 : Shape := ⟨1, ![1]⟩
abbrev S100000x256 : Shape := ⟨2, ![100000, 256]⟩
abbrev S1x256 : Shape := ⟨2, ![1, 256]⟩
abbrev S1x5 : Shape := ⟨2, ![1, 5]⟩
abbrev S100000x5 : Shape := ⟨2, ![100000, 5]⟩
abbrev S2000x256 : Shape := ⟨2, ![2000, 256]⟩
abbrev S2000x5 : Shape := ⟨2, ![2000, 5]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S1x1 : Shape := ⟨2, ![1, 1]⟩
abbrev S3200000x5 : Shape := ⟨2, ![3200000, 5]⟩
abbrev S100000x160 : Shape := ⟨2, ![100000, 160]⟩
abbrev S100000x1 : Shape := ⟨2, ![100000, 1]⟩
abbrev S2000x160 : Shape := ⟨2, ![2000, 160]⟩
abbrev S2000x1 : Shape := ⟨2, ![2000, 1]⟩
abbrev S100000 : Shape := ⟨1, ![100000]⟩

abbrev nBuf : Space → Nat
  | .hbm => 65
  | .vmem => 24
  | .smem => 0
  | _ => 0

abbrev bufTy : (tb : Table) → Fin (tcTables nBuf tb) → BufTy
  | .hbm, ⟨0, _⟩ => ⟨S100000x8, .f32⟩
  | .hbm, ⟨1, _⟩ => ⟨S2x3200000, .i32⟩
  | .hbm, ⟨2, _⟩ => ⟨S3200000x8, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x5, .f32⟩
  | .hbm, ⟨10, _⟩ => ⟨S5, .f32⟩
  | .hbm, ⟨11, _⟩ => ⟨S160x256, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S256x256, .f32⟩
  | .hbm, ⟨16, _⟩ => ⟨S256, .f32⟩
  | .hbm, ⟨17, _⟩ => ⟨S256x1, .f32⟩
  | .hbm, ⟨18, _⟩ => ⟨S1, .f32⟩
  | .hbm, ⟨19, _⟩ => ⟨S100000x256, .f32⟩
  | .hbm, ⟨20, _⟩ => ⟨S256x256, .bf16⟩
  | .hbm, ⟨21, _⟩ => ⟨S256x256, .bf16⟩
  | .hbm, ⟨22, _⟩ => ⟨S256x256, .bf16⟩
  | .hbm, ⟨23, _⟩ => ⟨S256x5, .bf16⟩
  | .hbm, ⟨24, _⟩ => ⟨S1x256, .f32⟩
  | .hbm, ⟨25, _⟩ => ⟨S1x256, .f32⟩
  | .hbm, ⟨26, _⟩ => ⟨S1x256, .f32⟩
  | .hbm, ⟨27, _⟩ => ⟨S1x5, .f32⟩
  | .hbm, ⟨28, _⟩ => ⟨S100000x5, .f32⟩
  | .hbm, ⟨29, _⟩ => ⟨S1x3200000, .i32⟩
  | .hbm, ⟨30, _⟩ => ⟨S3200000, .i32⟩
  | .hbm, ⟨31, _⟩ => ⟨S_, .i32⟩
  | .hbm, ⟨32, _⟩ => ⟨S3200000, .i32⟩
  | .hbm, ⟨33, _⟩ => ⟨S3200000, .i1⟩
  | .hbm, ⟨34, _⟩ => ⟨S_, .i32⟩
  | .hbm, ⟨35, _⟩ => ⟨S3200000, .i32⟩
  | .hbm, ⟨36, _⟩ => ⟨S3200000, .i32⟩
  | .hbm, ⟨37, _⟩ => ⟨S3200000, .i32⟩
  | .hbm, ⟨38, _⟩ => ⟨S3200000x1, .i32⟩
  | .hbm, ⟨39, _⟩ => ⟨S1, .i32⟩
  | .hbm, ⟨40, _⟩ => ⟨S_, .i32⟩
  | .hbm, ⟨41, _⟩ => ⟨S3200000x1, .i32⟩
  | .hbm, ⟨42, _⟩ => ⟨S3200000x1, .i1⟩
  | .hbm, ⟨43, _⟩ => ⟨S1x1, .i32⟩
  | .hbm, ⟨44, _⟩ => ⟨S3200000x1, .i32⟩
  | .hbm, ⟨45, _⟩ => ⟨S3200000x1, .i1⟩
  | .hbm, ⟨46, _⟩ => ⟨S3200000x1, .i1⟩
  | .hbm, ⟨47, _⟩ => ⟨S_, .i1⟩
  | .hbm, ⟨48, _⟩ => ⟨S3200000, .i1⟩
  | .hbm, ⟨49, _⟩ => ⟨S3200000x5, .f32⟩
  | .hbm, ⟨50, _⟩ => ⟨S3200000x5, .i1⟩
  | .hbm, ⟨51, _⟩ => ⟨S_, .f32⟩
  | .hbm, ⟨52, _⟩ => ⟨S3200000x5, .f32⟩
  | .hbm, ⟨53, _⟩ => ⟨S3200000x5, .f32⟩
  | .hbm, ⟨54, _⟩ => ⟨S100000x160, .f32⟩
  | .hbm, ⟨55, _⟩ => ⟨S160x256, .bf16⟩
  | .hbm, ⟨56, _⟩ => ⟨S256x256, .bf16⟩
  | .hbm, ⟨57, _⟩ => ⟨S256x256, .bf16⟩
  | .hbm, ⟨58, _⟩ => ⟨S256x1, .bf16⟩
  | .hbm, ⟨59, _⟩ => ⟨S1x256, .f32⟩
  | .hbm, ⟨60, _⟩ => ⟨S1x256, .f32⟩
  | .hbm, ⟨61, _⟩ => ⟨S1x256, .f32⟩
  | .hbm, ⟨62, _⟩ => ⟨S1x1, .f32⟩
  | .hbm, ⟨63, _⟩ => ⟨S100000x1, .f32⟩
  | .hbm, ⟨64, _⟩ => ⟨S100000, .f32⟩
  | .local _ .vmem, ⟨0, _⟩ => ⟨S2000x256, .f32⟩
  | .local _ .vmem, ⟨1, _⟩ => ⟨S2000x256, .f32⟩
  | .local _ .vmem, ⟨2, _⟩ => ⟨S256x256, .bf16⟩
  | .local _ .vmem, ⟨3, _⟩ => ⟨S1x256, .f32⟩
  | .local _ .vmem, ⟨4, _⟩ => ⟨S256x256, .bf16⟩
  | .local _ .vmem, ⟨5, _⟩ => ⟨S1x256, .f32⟩
  | .local _ .vmem, ⟨6, _⟩ => ⟨S256x256, .bf16⟩
  | .local _ .vmem, ⟨7, _⟩ => ⟨S1x256, .f32⟩
  | .local _ .vmem, ⟨8, _⟩ => ⟨S256x5, .bf16⟩
  | .local _ .vmem, ⟨9, _⟩ => ⟨S1x5, .f32⟩
  | .local _ .vmem, ⟨10, _⟩ => ⟨S2000x5, .f32⟩
  | .local _ .vmem, ⟨11, _⟩ => ⟨S2000x5, .f32⟩
  | .local _ .vmem, ⟨12, _⟩ => ⟨S2000x160, .f32⟩
  | .local _ .vmem, ⟨13, _⟩ => ⟨S2000x160, .f32⟩
  | .local _ .vmem, ⟨14, _⟩ => ⟨S160x256, .bf16⟩
  | .local _ .vmem, ⟨15, _⟩ => ⟨S1x256, .f32⟩
  | .local _ .vmem, ⟨16, _⟩ => ⟨S256x256, .bf16⟩
  | .local _ .vmem, ⟨17, _⟩ => ⟨S1x256, .f32⟩
  | .local _ .vmem, ⟨18, _⟩ => ⟨S256x256, .bf16⟩
  | .local _ .vmem, ⟨19, _⟩ => ⟨S1x256, .f32⟩
  | .local _ .vmem, ⟨20, _⟩ => ⟨S256x1, .bf16⟩
  | .local _ .vmem, ⟨21, _⟩ => ⟨S1x1, .f32⟩
  | .local _ .vmem, ⟨22, _⟩ => ⟨S2000x1, .f32⟩
  | .local _ .vmem, ⟨23, _⟩ => ⟨S2000x1, .f32⟩
  | _, _ => ⟨S100000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_call0_c : Ref sig .tc := ⟨.hbm, 31, rfl⟩
abbrev main_call0_v0 : Ref sig .tc := ⟨.hbm, 32, rfl⟩
abbrev main_call0_v1 : Ref sig .tc := ⟨.hbm, 33, rfl⟩
abbrev main_call0_c_0 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_c_1 : Ref sig .tc := ⟨.hbm, 39, rfl⟩
abbrev main_call0_c_2 : Ref sig .tc := ⟨.hbm, 40, rfl⟩
abbrev main_call0_v6 : Ref sig .tc := ⟨.hbm, 41, rfl⟩
abbrev main_call0_v7 : Ref sig .tc := ⟨.hbm, 42, rfl⟩
abbrev main_call0_v8 : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_c_3 : Ref sig .tc := ⟨.hbm, 47, rfl⟩
abbrev main_call0_v12 : Ref sig .tc := ⟨.hbm, 48, rfl⟩
abbrev main_call0_v13 : Ref sig .tc := ⟨.hbm, 49, rfl⟩
abbrev main_call0_v14 : Ref sig .tc := ⟨.hbm, 50, rfl⟩
abbrev main_call0_cst : Ref sig .tc := ⟨.hbm, 51, rfl⟩
abbrev main_call0_v15 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg9_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem9_1 : DmaSem sig := 23

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x5 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x5 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x5 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x160 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S160x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x1 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  shapeCasts_S3200000x8_S100000x256 : S3200000x8.ShapeCasts S100000x256
  bitsLt_bf16_f32 : FTy.bits .bf16 < FTy.bits .f32
  shapeCasts_S256_S1x256 : S256.ShapeCasts S1x256
  shapeCasts_S5_S1x5 : S5.ShapeCasts S1x5
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x5_S256x5_0_0 : ∀ a, (![0, 0] : Fin 2 → Nat) a + S256x5.size a ≤ S256x5.size a
  h_S256x5 : 0 < S256x5.numel
  shapeCasts_S256x5_S256x5 : S256x5.ShapeCasts S256x5
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S2000x5 : S1x5.Broadcasts S2000x5
  inb_S2000x5_S2000x5_0_0 : ∀ a, (![0, 0] : Fin 2 → Nat) a + S2000x5.size a ≤ S2000x5.size a
  h_S2000x5 : 0 < S2000x5.numel
  slices_S2x3200000_S1x3200000_1_0 : S2x3200000.Slices ![1, 0] S1x3200000
  shapeCasts_S1x3200000_S3200000 : S1x3200000.ShapeCasts S3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S3200000x1 : S_.BroadcastsInDim S3200000x1 (![] : Fin 0 → Fin S3200000x1.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  reducesTo_S3200000x1_S3200000_d1 : S3200000x1.ReducesTo [1] S3200000
  h_S_ : 0 < S_.numel
  bcast_S3200000_S3200000x5_0 : S3200000.BroadcastsInDim S3200000x5 (![0] : Fin 1 → Fin S3200000x5.rank)
  bcast_S_S3200000x5 : S_.BroadcastsInDim S3200000x5 (![] : Fin 0 → Fin S3200000x5.rank)
  shapeCasts_S3200000x5_S100000x160 : S3200000x5.ShapeCasts S100000x160
  shapeCasts_S1_S1x1 : S1.ShapeCasts S1x1
  inb_S2000x160_S2000x160_0_0 : ∀ a, (![0, 0] : Fin 2 → Nat) a + S2000x160.size a ≤ S2000x160.size a
  h_S2000x160 : 0 < S2000x160.numel
  shapeCasts_S2000x160_S2000x160 : S2000x160.ShapeCasts S2000x160
  inb_S160x256_S160x256_0_0 : ∀ a, (![0, 0] : Fin 2 → Nat) a + S160x256.size a ≤ S160x256.size a
  h_S160x256 : 0 < S160x256.numel
  shapeCasts_S160x256_S160x256 : S160x256.ShapeCasts S160x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  shapeCasts_S100000x1_S100000 : S100000x1.ShapeCasts S100000
  dot_S2000x256_S256x256_S2000x256_1_0_0_1_n_n_wf : DotDims.WF S2000x256 S256x256 S2000x256 [1] [0] [0] [1] [] []
  dot_S2000x256_S256x5_S2000x5_1_0_0_1_n_n_wf : DotDims.WF S2000x256 S256x5 S2000x5 [1] [0] [0] [1] [] []
  gather_S100000x5_S3200000x1_S3200000x5_1_0_n_n_0_1_15_wf : GatherDims.WF S100000x5 S3200000x1 S3200000x5 [1] [0] [] [0] [] 1 ![1, 5]
  dot_S2000x160_S160x256_S2000x256_1_0_0_1_n_n_wf : DotDims.WF S2000x160 S160x256 S2000x256 [1] [0] [0] [1] [] []
  dot_S2000x256_S256x1_S2000x1_1_0_0_1_n_n_wf : DotDims.WF S2000x256 S256x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x5.size a ≤ S256x5.size a
  hwx0_7 : ∀ i : grid0.Coords, EltTy.bits .bf16 = 32 ∨ (Rect.block (s := S256x5) S256x5.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x5.size a ≤ S1x5.size a
  hwx0_8 : ∀ i : grid0.Coords, EltTy.bits .f32 = 32 ∨ (Rect.block (s := S1x5) S1x5.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x5.size a ≤ S100000x5.size a
  hwx0_9 : ∀ i : grid0.Coords, EltTy.bits .f32 = 32 ∨ (Rect.block (s := S100000x5) S2000x5.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x160.size a ≤ S100000x160.size a
  hwx1_0 : ∀ i : grid1.Coords, EltTy.bits .f32 = 32 ∨ (Rect.block (s := S100000x160) S2000x160.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S160x256.size a ≤ S160x256.size a
  hwx1_1 : ∀ i : grid1.Coords, EltTy.bits .bf16 = 32 ∨ (Rect.block (s := S160x256) S160x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .bf16 = 32 ∨ (Rect.block (s := S256x256) S256x256.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S256x1.size a ≤ S256x1.size a
  hwx1_7 : ∀ i : grid1.Coords, EltTy.bits .bf16 = 32 ∨ (Rect.block (s := S256x1) S256x1.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x1.size a ≤ S1x1.size a
  hwx1_8 : ∀ i : grid1.Coords, EltTy.bits .f32 = 32 ∨ (Rect.block (s := S1x1) S1x1.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x1.size a ≤ S100000x1.size a
  hwx1_9 : ∀ i : grid1.Coords, EltTy.bits .f32 = 32 ∨ (Rect.block (s := S100000x1) S2000x1.size (cc1_transform_9 i) (hinb1_9 i)).WholeWords (EltTy.packing .f32)

variable [Facts₀]

def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x5_S2000x5_1_0_0_1_n_n : DotDims S2000x256 S256x5 S2000x5 where
  lhsContracting := [1]
  rhsContracting := [0]
  lhsNonContracting := [0]
  rhsNonContracting := [1]
  lhsBatch := []
  rhsBatch := []
  wf := dot_S2000x256_S256x5_S2000x5_1_0_0_1_n_n_wf
def gather_S100000x5_S3200000x1_S3200000x5_1_0_n_n_0_1_15 : GatherDims S100000x5 S3200000x1 S3200000x5 where
  offsetDims := [1]
  collapsedSliceDims := [0]
  operandBatchingDims := []
  startIndicesBatchingDims := []
  startIndexMap := [0]
  indexVectorDim := 1
  sliceSizes := ![1, 5]
  wf := gather_S100000x5_S3200000x1_S3200000x5_1_0_n_n_0_1_15_wf
def dot_S2000x160_S160x256_S2000x256_1_0_0_1_n_n : DotDims S2000x160 S160x256 S2000x256 where
  lhsContracting := [1]
  rhsContracting := [0]
  lhsNonContracting := [0]
  rhsNonContracting := [1]
  lhsBatch := []
  rhsBatch := []
  wf := dot_S2000x160_S160x256_S2000x256_1_0_0_1_n_n_wf
def dot_S2000x256_S256x1_S2000x1_1_0_0_1_n_n : DotDims S2000x256 S256x1 S2000x1 where
  lhsContracting := [1]
  rhsContracting := [0]
  lhsNonContracting := [0]
  rhsNonContracting := [1]
  lhsBatch := []
  rhsBatch := []
  wf := dot_S2000x256_S256x1_S2000x1_1_0_0_1_n_n_wf

abbrev win0_0 : Pipeline.Window sig grid0 :=
  Pipeline.Window.ofSpec (Memref.whole main_v0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S256x5.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x5.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S2000x5.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v13) S2000x160.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S160x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v16) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v20) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v17) S256x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v21) S1x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v22) S2000x1.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S100000x8 : Shape := ⟨2, ![100000, 8]⟩
abbrev S2x3200000 : Shape := ⟨2, ![2, 3200000]⟩
abbrev S3200000x8 : Shape := ⟨2, ![3200000, 8]⟩
abbrev S256x256 : Shape := ⟨2, ![256, 256]⟩
abbrev S256 : Shape := ⟨1, ![256]⟩
abbrev S256x5 : Shape := ⟨2, ![256, 5]⟩
abbrev S5 : Shape := ⟨1, ![5]⟩
abbrev S160x256 : Shape := ⟨2, ![160, 256]⟩
abbrev S256x1 : Shape := ⟨2, ![256, 1]⟩
abbrev S1 : Shape := ⟨1, ![1]⟩
abbrev S100000x256 : Shape := ⟨2, ![100000, 256]⟩
abbrev S1x256 : Shape := ⟨2, ![1, 256]⟩
abbrev S100000x5 : Shape := ⟨2, ![100000, 5]⟩
abbrev S1x5 : Shape := ⟨2, ![1, 5]⟩
abbrev S_ : Shape := ⟨0, ![]⟩
abbrev S1x3200000 : Shape := ⟨2, ![1, 3200000]⟩
abbrev S3200000 : Shape := ⟨1, ![3200000]⟩
abbrev S3200000x1 : Shape := ⟨2, ![3200000, 1]⟩
abbrev S3200000x5 : Shape := ⟨2, ![3200000, 5]⟩
abbrev S100000x160 : Shape := ⟨2, ![100000, 160]⟩
abbrev S100000x1 : Shape := ⟨2, ![100000, 1]⟩
abbrev S1x1 : Shape := ⟨2, ![1, 1]⟩
abbrev S100000 : Shape := ⟨1, ![100000]⟩

abbrev nBuf : Space → Nat
  | .hbm => 87
  | .vmem => 0
  | .smem => 0
  | _ => 0

abbrev bufTy : (tb : Table) → Fin (tcTables nBuf tb) → BufTy
  | .hbm, ⟨0, _⟩ => ⟨S100000x8, .f32⟩
  | .hbm, ⟨1, _⟩ => ⟨S2x3200000, .i32⟩
  | .hbm, ⟨2, _⟩ => ⟨S3200000x8, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x5, .f32⟩
  | .hbm, ⟨10, _⟩ => ⟨S5, .f32⟩
  | .hbm, ⟨11, _⟩ => ⟨S160x256, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S256x256, .f32⟩
  | .hbm, ⟨16, _⟩ => ⟨S256, .f32⟩
  | .hbm, ⟨17, _⟩ => ⟨S256x1, .f32⟩
  | .hbm, ⟨18, _⟩ => ⟨S1, .f32⟩
  | .hbm, ⟨19, _⟩ => ⟨S100000x256, .f32⟩
  | .hbm, ⟨20, _⟩ => ⟨S100000x256, .f32⟩
  | .hbm, ⟨21, _⟩ => ⟨S1x256, .f32⟩
  | .hbm, ⟨22, _⟩ => ⟨S100000x256, .f32⟩
  | .hbm, ⟨23, _⟩ => ⟨S100000x256, .f32⟩
  | .hbm, ⟨24, _⟩ => ⟨S100000x256, .f32⟩
  | .hbm, ⟨25, _⟩ => ⟨S100000x256, .f32⟩
  | .hbm, ⟨26, _⟩ => ⟨S1x256, .f32⟩
  | .hbm, ⟨27, _⟩ => ⟨S100000x256, .f32⟩
  | .hbm, ⟨28, _⟩ => ⟨S100000x256, .f32⟩
  | .hbm, ⟨29, _⟩ => ⟨S100000x256, .f32⟩
  | .hbm, ⟨30, _⟩ => ⟨S100000x256, .f32⟩
  | .hbm, ⟨31, _⟩ => ⟨S1x256, .f32⟩
  | .hbm, ⟨32, _⟩ => ⟨S100000x256, .f32⟩
  | .hbm, ⟨33, _⟩ => ⟨S100000x256, .f32⟩
  | .hbm, ⟨34, _⟩ => ⟨S100000x256, .f32⟩
  | .hbm, ⟨35, _⟩ => ⟨S100000x5, .f32⟩
  | .hbm, ⟨36, _⟩ => ⟨S1x5, .f32⟩
  | .hbm, ⟨37, _⟩ => ⟨S100000x5, .f32⟩
  | .hbm, ⟨38, _⟩ => ⟨S100000x5, .f32⟩
  | .hbm, ⟨39, _⟩ => ⟨S100000x5, .f32⟩
  | .hbm, ⟨40, _⟩ => ⟨S100000x5, .f32⟩
  | .hbm, ⟨41, _⟩ => ⟨S_, .f32⟩
  | .hbm, ⟨42, _⟩ => ⟨S100000x5, .f32⟩
  | .hbm, ⟨43, _⟩ => ⟨S100000x5, .f32⟩
  | .hbm, ⟨44, _⟩ => ⟨S_, .f32⟩
  | .hbm, ⟨45, _⟩ => ⟨S100000x5, .f32⟩
  | .hbm, ⟨46, _⟩ => ⟨S100000x5, .f32⟩
  | .hbm, ⟨47, _⟩ => ⟨S1x3200000, .i32⟩
  | .hbm, ⟨48, _⟩ => ⟨S3200000, .i32⟩
  | .hbm, ⟨49, _⟩ => ⟨S_, .i32⟩
  | .hbm, ⟨50, _⟩ => ⟨S3200000, .i32⟩
  | .hbm, ⟨51, _⟩ => ⟨S3200000, .i1⟩
  | .hbm, ⟨52, _⟩ => ⟨S_, .i32⟩
  | .hbm, ⟨53, _⟩ => ⟨S3200000, .i32⟩
  | .hbm, ⟨54, _⟩ => ⟨S3200000, .i32⟩
  | .hbm, ⟨55, _⟩ => ⟨S3200000, .i32⟩
  | .hbm, ⟨56, _⟩ => ⟨S3200000x1, .i32⟩
  | .hbm, ⟨57, _⟩ => ⟨S3200000x5, .f32⟩
  | .hbm, ⟨58, _⟩ => ⟨S100000x160, .f32⟩
  | .hbm, ⟨59, _⟩ => ⟨S100000x256, .f32⟩
  | .hbm, ⟨60, _⟩ => ⟨S1x256, .f32⟩
  | .hbm, ⟨61, _⟩ => ⟨S100000x256, .f32⟩
  | .hbm, ⟨62, _⟩ => ⟨S100000x256, .f32⟩
  | .hbm, ⟨63, _⟩ => ⟨S100000x256, .f32⟩
  | .hbm, ⟨64, _⟩ => ⟨S100000x256, .f32⟩
  | .hbm, ⟨65, _⟩ => ⟨S1x256, .f32⟩
  | .hbm, ⟨66, _⟩ => ⟨S100000x256, .f32⟩
  | .hbm, ⟨67, _⟩ => ⟨S100000x256, .f32⟩
  | .hbm, ⟨68, _⟩ => ⟨S100000x256, .f32⟩
  | .hbm, ⟨69, _⟩ => ⟨S100000x256, .f32⟩
  | .hbm, ⟨70, _⟩ => ⟨S1x256, .f32⟩
  | .hbm, ⟨71, _⟩ => ⟨S100000x256, .f32⟩
  | .hbm, ⟨72, _⟩ => ⟨S100000x256, .f32⟩
  | .hbm, ⟨73, _⟩ => ⟨S100000x256, .f32⟩
  | .hbm, ⟨74, _⟩ => ⟨S100000x1, .f32⟩
  | .hbm, ⟨75, _⟩ => ⟨S1x1, .f32⟩
  | .hbm, ⟨76, _⟩ => ⟨S100000x1, .f32⟩
  | .hbm, ⟨77, _⟩ => ⟨S100000x1, .f32⟩
  | .hbm, ⟨78, _⟩ => ⟨S100000x1, .f32⟩
  | .hbm, ⟨79, _⟩ => ⟨S100000x1, .f32⟩
  | .hbm, ⟨80, _⟩ => ⟨S_, .f32⟩
  | .hbm, ⟨81, _⟩ => ⟨S100000x1, .f32⟩
  | .hbm, ⟨82, _⟩ => ⟨S100000x1, .f32⟩
  | .hbm, ⟨83, _⟩ => ⟨S_, .f32⟩
  | .hbm, ⟨84, _⟩ => ⟨S100000x1, .f32⟩
  | .hbm, ⟨85, _⟩ => ⟨S100000x1, .f32⟩
  | .hbm, ⟨86, _⟩ => ⟨S100000, .f32⟩
  | _, _ => ⟨S100000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst : Ref sig .tc := ⟨.hbm, 41, rfl⟩
abbrev main_v22 : Ref sig .tc := ⟨.hbm, 42, rfl⟩
abbrev main_v23 : Ref sig .tc := ⟨.hbm, 43, rfl⟩
abbrev main_cst_0 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c : Ref sig .tc := ⟨.hbm, 49, rfl⟩
abbrev main_v28 : Ref sig .tc := ⟨.hbm, 50, rfl⟩
abbrev main_v29 : Ref sig .tc := ⟨.hbm, 51, rfl⟩
abbrev main_c_1 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_2 : Ref sig .tc := ⟨.hbm, 80, rfl⟩
abbrev main_v57 : Ref sig .tc := ⟨.hbm, 81, rfl⟩
abbrev main_v58 : Ref sig .tc := ⟨.hbm, 82, rfl⟩
abbrev main_cst_3 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩

abbrev nD : Nat := 1
abbrev τ : Topo := Topo.v7x

variable {F : FTy → Type} [FloatOps F]

class Facts₀ : Prop where
  shapeCasts_S3200000x8_S100000x256 : S3200000x8.ShapeCasts S100000x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S5_S1x5_1 : S5.BroadcastsInDim S1x5 (![1] : Fin 1 → Fin S1x5.rank)
  bcast_S1x5_S100000x5_0_1 : S1x5.BroadcastsInDim S100000x5 (![0, 1] : Fin 2 → Fin S100000x5.rank)
  bcast_S_S100000x5 : S_.BroadcastsInDim S100000x5 (![] : Fin 0 → Fin S100000x5.rank)
  slices_S2x3200000_S1x3200000_1_0 : S2x3200000.Slices ![1, 0] S1x3200000
  shapeCasts_S1x3200000_S3200000 : S1x3200000.ShapeCasts S3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  shapeCasts_S3200000x5_S100000x160 : S3200000x5.ShapeCasts S100000x160
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  shapeCasts_S100000x1_S100000 : S100000x1.ShapeCasts S100000
  dot_S100000x256_S256x256_S100000x256_1_0_0_1_n_n_wf : DotDims.WF S100000x256 S256x256 S100000x256 [1] [0] [0] [1] [] []
  dot_S100000x256_S256x5_S100000x5_1_0_0_1_n_n_wf : DotDims.WF S100000x256 S256x5 S100000x5 [1] [0] [0] [1] [] []
  gather_S100000x5_S3200000x1_S3200000x5_1_0_n_n_0_1_15_wf : GatherDims.WF S100000x5 S3200000x1 S3200000x5 [1] [0] [] [0] [] 1 ![1, 5]
  dot_S100000x160_S160x256_S100000x256_1_0_0_1_n_n_wf : DotDims.WF S100000x160 S160x256 S100000x256 [1] [0] [0] [1] [] []
  dot_S100000x256_S256x1_S100000x1_1_0_0_1_n_n_wf : DotDims.WF S100000x256 S256x1 S100000x1 [1] [0] [0] [1] [] []

variable [Facts₀]

def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S100000x256_S256x5_S100000x5_1_0_0_1_n_n : DotDims S100000x256 S256x5 S100000x5 where
  lhsContracting := [1]
  rhsContracting := [0]
  lhsNonContracting := [0]
  rhsNonContracting := [1]
  lhsBatch := []
  rhsBatch := []
  wf := dot_S100000x256_S256x5_S100000x5_1_0_0_1_n_n_wf
def gather_S100000x5_S3200000x1_S3200000x5_1_0_n_n_0_1_15 : GatherDims S100000x5 S3200000x1 S3200000x5 where
  offsetDims := [1]
  collapsedSliceDims := [0]
  operandBatchingDims := []
  startIndicesBatchingDims := []
  startIndexMap := [0]
  indexVectorDim := 1
  sliceSizes := ![1, 5]
  wf := gather_S100000x5_S3200000x1_S3200000x5_1_0_n_n_0_1_15_wf
def dot_S100000x160_S160x256_S100000x256_1_0_0_1_n_n : DotDims S100000x160 S160x256 S100000x256 where
  lhsContracting := [1]
  rhsContracting := [0]
  lhsNonContracting := [0]
  rhsNonContracting := [1]
  lhsBatch := []
  rhsBatch := []
  wf := dot_S100000x160_S160x256_S100000x256_1_0_0_1_n_n_wf
def dot_S100000x256_S256x1_S100000x1_1_0_0_1_n_n : DotDims S100000x256 S256x1 S100000x1 where
  lhsContracting := [1]
  rhsContracting := [0]
  lhsNonContracting := [0]
  rhsNonContracting := [1]
  lhsBatch := []
  rhsBatch := []
  wf := dot_S100000x256_S256x1_S100000x1_1_0_0_1_n_n_wf

class Facts : Prop extends Facts₀ where

variable [Facts]
-- ==== Proof.Net.lean ====
/-
  The row function both programs compute.

  A dense layer sends a row `h` (indexed by `Fin K`) to `j ↦ (∑ k, h k * w k j) + b j`; a hidden layer
  applies `tanh` to that, entry by entry; the four-layer network applies three hidden layers and then
  a dense layer followed by the logistic function `1 / (1 + e⁻ˣ)`. Everything is over the extended
  reals, where a float operation is the textbook one. A network applied to an array acts row by
  row: row `i` of the result depends on row `i` of the input only.
-/
import Idealize.ShloMosaic.PureOps.Ideal
import Idealize.ShloMosaic.Lib.ValueIdx

noncomputable section

namespace Cert.Net

open Idealize.ShloMosaic Idealize.ShloMosaic.ValueIdx

/-- One dense layer on a row: `j ↦ (∑ k, h k * w k j) + b j`. -/
def dense {K N : ℕ} (h : Fin K → EReal) (w : Fin K → Fin N → EReal) (b : Fin N → EReal) (j : Fin N) : EReal :=
  (∑ k : Fin K, h k * w k j) + b j

/-- A hidden layer: a dense layer followed by `tanh`. -/
def hidden {K N : ℕ} (h : Fin K → EReal) (w : Fin K → Fin N → EReal) (b : Fin N → EReal) : Fin N → EReal :=
  fun j => Ideal.tanh (dense h w b j)

/-- The four-layer network on a row: three hidden layers, then a dense layer and the logistic function. -/
def mlp4 {K0 K1 K2 K3 K4 : ℕ} (h : Fin K0 → EReal)
    (w0 : Fin K0 → Fin K1 → EReal) (b0 : Fin K1 → EReal) (w1 : Fin K1 → Fin K2 → EReal) (b1 : Fin K2 → EReal)
    (w2 : Fin K2 → Fin K3 → EReal) (b2 : Fin K3 → EReal) (w3 : Fin K3 → Fin K4 → EReal) (b3 : Fin K4 → EReal) :
    Fin K4 → EReal :=
  fun j => Ideal.logistic (dense (hidden (hidden (hidden h w0 b0) w1 b1) w2 b2) w3 b3 j)

/-- Row `i` of a rank-2 array. -/
def row {R K : ℕ} (x : (⟨2, ![R, K]⟩ : Shape).Idx → EReal) (i : Fin R) : Fin K → EReal := fun k => x (ix2 i k)

/-- A rank-2 array as a function of its two coordinates. -/
def mat {K N : ℕ} (w : (⟨2, ![K, N]⟩ : Shape).Idx → EReal) : Fin K → Fin N → EReal := fun k j => w (ix2 k j)

/-- A rank-1 array as a function of its coordinate. -/
def vec {N : ℕ} (b : (⟨1, ![N]⟩ : Shape).Idx → EReal) : Fin N → EReal := fun j => b (ix1 j)

/-- The network applied to every row of an array, the biases given as rows. -/
def mlp4Rows {R K0 K1 K2 K3 K4 : ℕ} (x : (⟨2, ![R, K0]⟩ : Shape).Idx → EReal)
    (w0 : Fin K0 → Fin K1 → EReal) (b0 : Fin K1 → EReal) (w1 : Fin K1 → Fin K2 → EReal) (b1 : Fin K2 → EReal)
    (w2 : Fin K2 → Fin K3 → EReal) (b2 : Fin K3 → EReal) (w3 : Fin K3 → Fin K4 → EReal) (b3 : Fin K4 → EReal) :
    (⟨2, ![R, K4]⟩ : Shape).Idx → EReal :=
  fun i => mlp4 (row x (i 0)) w0 b0 w1 b1 w2 b2 w3 b3 (i 1)

end Cert.Net

end
-- ==== Proof.Dot.lean ====
/-
  A matrix product of an [R, K] array by a [K, N] array, read at the entry (p, q), is the sum over
  the K positions k of the left operand at (p, k) times the right operand at (k, q): for the kernel's
  product into a zero accumulator and for the host's `dot_general` alike, over the extended reals.
  With the bias row added, that entry is the dense layer of row p, at q.
-/
import Idealize.ShloMosaic.PureOps.Ideal.Laws
import Idealize.ShloMosaic.Lib.ValueIdx
import Idealize.ShloMosaic.Lib.Pipeline.Value
import proofs.«417367_j37452114821373_1_alg».proof.Proof.Net

noncomputable section

namespace Cert.Net

open Idealize.ShloMosaic Idealize.ShloMosaic.ValueIdx

variable {R K N : ℕ}

/-- The dimension numbers of a plain product: contract the left operand's axis 1 with the right operand's axis 0. -/
abbrev pd (R K N : ℕ) : DotDims ⟨2, ![R, K]⟩ ⟨2, ![K, N]⟩ ⟨2, ![R, N]⟩ := DotDims.plain R K N

theorem pd_lhs_0 (i : (⟨2, ![R, N]⟩ : Shape).Idx) (q : (pd R K N).contr.Idx) : ((pd R K N).lhsIdx i q 0).val = (i 0).val := rfl
theorem pd_lhs_1 (i : (⟨2, ![R, N]⟩ : Shape).Idx) (q : (pd R K N).contr.Idx) :
    ((pd R K N).lhsIdx i q 1).val = (q ⟨0, Nat.one_pos⟩).val := rfl
theorem pd_rhs_0 (i : (⟨2, ![R, N]⟩ : Shape).Idx) (q : (pd R K N).contr.Idx) :
    ((pd R K N).rhsIdx i q 0).val = (q ⟨0, Nat.one_pos⟩).val := rfl
theorem pd_rhs_1 (i : (⟨2, ![R, N]⟩ : Shape).Idx) (q : (pd R K N).contr.Idx) : ((pd R K N).rhsIdx i q 1).val = (i 1).val := rfl

/-- The sum over the product's contraction index is the sum over `Fin K` of the operands at (p, k) and (k, q). -/
theorem sum_pd (l : (⟨2, ![R, K]⟩ : Shape).Idx → EReal) (r : (⟨2, ![K, N]⟩ : Shape).Idx → EReal) (p : Fin R) (q : Fin N) :
    ∑ k : (pd R K N).contr.Idx, l ((pd R K N).lhsIdx (ix2 p q) k) * r ((pd R K N).rhsIdx (ix2 p q) k)
      = ∑ k : Fin K, l (ix2 p k) * r (ix2 k q) := by
  rw [← Equiv.sum_comp (contrEquiv1 (pd R K N) K rfl rfl).symm]
  refine Finset.sum_congr rfl fun k _ => ?_
  have hk := contrEquiv1_symm_val (pd R K N) K rfl rfl k
  have el : (pd R K N).lhsIdx (ix2 p q) ((contrEquiv1 (pd R K N) K rfl rfl).symm k) = ix2 p k := funext fun a => Fin.ext (by
    match a with
    | ⟨0, _⟩ => exact pd_lhs_0 _ _
    | ⟨1, _⟩ => exact (pd_lhs_1 _ _).trans hk)
  have er : (pd R K N).rhsIdx (ix2 p q) ((contrEquiv1 (pd R K N) K rfl rfl).symm k) = ix2 k q := funext fun a => Fin.ext (by
    match a with
    | ⟨0, _⟩ => exact (pd_rhs_0 _ _).trans hk
    | ⟨1, _⟩ => exact pd_rhs_1 _ _)
  rw [el, er]

/-- The kernel's product into a zero accumulator, at (p, q). -/
theorem matmul_zero_pd_apply {φ₁ φ₂ : FTy} (l : FVec Ideal ⟨2, ![R, K]⟩ φ₁) (r : FVec Ideal ⟨2, ![K, N]⟩ φ₂) (p : Fin R) (q : Fin N) :
    matmul (pd R K N) none l r (constant ⟨2, ![R, N]⟩ .f32 0x00000000#32) (ix2 p q) = ∑ k : Fin K, l (ix2 p k) * r (ix2 k q) := by
  simp only [matmul]
  rw [Ideal.matmul_constant_zero_apply]
  exact sum_pd l r p q

/-- The host's `dot_general`, at (p, q). -/
theorem dotGeneral_pd_apply {φ₁ φ₂ : FTy} (l : FVec Ideal ⟨2, ![R, K]⟩ φ₁) (r : FVec Ideal ⟨2, ![K, N]⟩ φ₂) (p : Fin R) (q : Fin N) :
    Host.dotGeneral (pd R K N) none l r (ix2 p q) = ∑ k : Fin K, l (ix2 p k) * r (ix2 k q) := by
  simp only [Host.dotGeneral]
  rw [Ideal.dotGeneral_apply]
  exact sum_pd l r p q

end Cert.Net

end
-- ==== Proof.Layer.lean ====
/-
  One layer of each program, read at an entry.

  The kernel computes a layer of a block as the product of the block (rounded to the weights' format,
  which over the extended reals changes nothing) with the weights into a zero accumulator, plus the
  bias row broadcast down the rows. The host computes it as a `dot_general` plus the bias vector
  broadcast to a row and then down the rows. At the entry (p, q) both are the dense layer of row p
  at q; so three such layers under `tanh` and a fourth under the logistic function are the network of
  row p, at q.
-/
import proofs.«417367_j37452114821373_1_alg».proof.Proof.Dot

noncomputable section

namespace Cert.Net

open Idealize.ShloMosaic Idealize.ShloMosaic.ValueIdx

variable {R K N : ℕ}

/-- The one row of a [1, N] array as a function of the column. -/
def row0 (b : (⟨2, ![1, N]⟩ : Shape).Idx → EReal) : Fin N → EReal := fun j => b (ix2 0 j)

/-! ## The kernel's layer -/

/-- A layer before its activation, as the kernel computes it on a block. -/
def kpre (l : FVec Ideal ⟨2, ![R, K]⟩ .f32) (w : FVec Ideal ⟨2, ![K, N]⟩ .bf16) (b : FVec Ideal ⟨2, ![1, N]⟩ .f32)
    (hlt : FTy.bf16.bits < FTy.f32.bits) (hb : (⟨2, ![1, N]⟩ : Shape).Broadcasts ⟨2, ![R, N]⟩) : FVec Ideal ⟨2, ![R, N]⟩ .f32 :=
  addf (matmul (pd R K N) none (truncf .bf16 l hlt) w (constant ⟨2, ![R, N]⟩ .f32 0x00000000#32)) (broadcastTo ⟨2, ![R, N]⟩ b hb)

/-- The bias row broadcast down the rows, at (p, q), is the bias at column q. -/
theorem broadcastTo_row_apply (b : FVec Ideal ⟨2, ![1, N]⟩ .f32) (hb : (⟨2, ![1, N]⟩ : Shape).Broadcasts ⟨2, ![R, N]⟩)
    (p : Fin R) (q : Fin N) : broadcastTo ⟨2, ![R, N]⟩ b hb (ix2 p q) = b (ix2 0 q) := by
  refine broadcastTo_apply b hb (ix2 p q) (ix2 0 q) fun a => ?_
  match a with
  | ⟨0, _⟩ => exact (if_pos rfl).symm
  | ⟨1, _⟩ =>
    show q.val = if N = 1 then 0 else q.val
    split
    · have := q.isLt; omega
    · rfl

theorem kpre_apply (l : FVec Ideal ⟨2, ![R, K]⟩ .f32) (w : FVec Ideal ⟨2, ![K, N]⟩ .bf16) (b : FVec Ideal ⟨2, ![1, N]⟩ .f32)
    (hlt : FTy.bf16.bits < FTy.f32.bits) (hb : (⟨2, ![1, N]⟩ : Shape).Broadcasts ⟨2, ![R, N]⟩) (p : Fin R) (q : Fin N) :
    kpre l w b hlt hb (ix2 p q) = dense (row l p) (mat w) (row0 b) q := by
  show matmul (pd R K N) none (truncf .bf16 l hlt) w (constant ⟨2, ![R, N]⟩ .f32 0x00000000#32) (ix2 p q)
      + broadcastTo ⟨2, ![R, N]⟩ b hb (ix2 p q) = _
  rw [matmul_zero_pd_apply, broadcastTo_row_apply]
  rfl

/-- A hidden layer of a block, read along row p. -/
theorem row_tanh_kpre (l : FVec Ideal ⟨2, ![R, K]⟩ .f32) (w : FVec Ideal ⟨2, ![K, N]⟩ .bf16) (b : FVec Ideal ⟨2, ![1, N]⟩ .f32)
    (hlt : FTy.bf16.bits < FTy.f32.bits) (hb : (⟨2, ![1, N]⟩ : Shape).Broadcasts ⟨2, ![R, N]⟩) (p : Fin R) :
    row (tanh (kpre l w b hlt hb)) p = hidden (row l p) (mat w) (row0 b) :=
  funext fun k => by
    show Ideal.tanh (kpre l w b hlt hb (ix2 p k)) = _
    rw [kpre_apply]
    rfl

/-! ## The host's layer -/

/-- A layer before its activation, as the host computes it on the whole array. -/
def rpre (l : FVec Ideal ⟨2, ![R, K]⟩ .f32) (w : FVec Ideal ⟨2, ![K, N]⟩ .f32) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2)) : FVec Ideal ⟨2, ![R, N]⟩ .f32 :=
  addf (Host.dotGeneral (pd R K N) none l w) (broadcastInDim ⟨2, ![R, N]⟩ ![0, 1] h2 (broadcastInDim ⟨2, ![1, N]⟩ ![1] h1 b))

/-- The bias vector broadcast to a row and then down the rows, at (p, q), is the bias at q. -/
theorem broadcastInDim_vec_apply (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2)) (p : Fin R) (q : Fin N) :
    broadcastInDim ⟨2, ![R, N]⟩ ![0, 1] h2 (broadcastInDim ⟨2, ![1, N]⟩ ![1] h1 b) (ix2 p q) = b (ix1 q) := by
  rw [broadcastInDim_apply ![0, 1] h2 _ (ix2 p q) (ix2 0 q) fun a => by
    match a with
    | ⟨0, _⟩ => exact (if_pos rfl).symm
    | ⟨1, _⟩ =>
      show q.val = if N = 1 then 0 else q.val
      split
      · have := q.isLt; omega
      · rfl]
  refine broadcastInDim_apply ![1] h1 b (ix2 0 q) (ix1 q) fun a => ?_
  match a with
  | ⟨0, _⟩ =>
    show q.val = if N = 1 then 0 else q.val
    split
    · have := q.isLt; omega
    · rfl

theorem rpre_apply (l : FVec Ideal ⟨2, ![R, K]⟩ .f32) (w : FVec Ideal ⟨2, ![K, N]⟩ .f32) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2)) (p : Fin R) (q : Fin N) :
    rpre l w b h1 h2 (ix2 p q) = dense (row l p) (mat w) (vec b) q := by
  show Host.dotGeneral (pd R K N) none l w (ix2 p q)
      + broadcastInDim ⟨2, ![R, N]⟩ ![0, 1] h2 (broadcastInDim ⟨2, ![1, N]⟩ ![1] h1 b) (ix2 p q) = _
  rw [dotGeneral_pd_apply, broadcastInDim_vec_apply]
  rfl

/-- A hidden layer of the whole array, read along row p. -/
theorem row_tanh_rpre (l : FVec Ideal ⟨2, ![R, K]⟩ .f32) (w : FVec Ideal ⟨2, ![K, N]⟩ .f32) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2)) (p : Fin R) :
    row (Host.tanh (rpre l w b h1 h2)) p = hidden (row l p) (mat w) (vec b) :=
  funext fun k => by
    show Ideal.tanh (rpre l w b h1 h2 (ix2 p k)) = _
    rw [rpre_apply]
    rfl

end Cert.Net

end
-- ==== Proof.Pay.lean ====
/-
  What each kernel body computes on its blocks: the network, row by row.

  The body loads a block of rows and the four weight matrices and bias rows whole, and stores
  logistic (L₃ (tanh (L₂ (tanh (L₁ (tanh (L₀ x))))))), each Lᵢ a product into a zero accumulator plus
  the bias row. Read at the entry (p, q) of the stored block that is the four-layer network of row p
  of the loaded block, at q.
-/
import proofs.«417367_j37452114821373_1_alg».proof.Proof.Gen.KernelIdeal.Skeleton
import proofs.«417367_j37452114821373_1_alg».proof.Proof.Layer

noncomputable section

namespace Cert.KernelIdeal.Pay

open Cert.KernelIdeal Cert.KernelIdeal.Gen Cert.Net
open Idealize.ShloMosaic Idealize.ShloMosaic.ValueIdx

variable [Facts]

/-- The first kernel's stored block (2000 rows of 256 inputs, 5 outputs), at (p, q). -/
theorem pay0_apply (x0 : Vec Ideal S2000x256 .f32) (x1 : Vec Ideal S256x256 .bf16) (x2 : Vec Ideal S1x256 .f32)
    (x3 : Vec Ideal S256x256 .bf16) (x4 : Vec Ideal S1x256 .f32) (x5 : Vec Ideal S256x256 .bf16) (x6 : Vec Ideal S1x256 .f32)
    (x7 : Vec Ideal S256x5 .bf16) (x8 : Vec Ideal S1x5 .f32) (p : Fin 2000) (q : Fin 5) :
    k0_pay1 (F := Ideal) (k0_pay2 (F := Ideal) x0 x1 x2 x3 x4 x5 x6 x7 x8) (ix2 p q)
      = mlp4 (row x0 p) (mat x1) (row0 x2) (mat x3) (row0 x4) (mat x5) (row0 x6) (mat x7) (row0 x8) q := by
  have e : k0_pay1 (F := Ideal) (k0_pay2 (F := Ideal) x0 x1 x2 x3 x4 x5 x6 x7 x8)
      = logistic (kpre (R := 2000) (K := 256) (N := 5)
          (tanh (kpre (R := 2000) (K := 256) (N := 256)
            (tanh (kpre (R := 2000) (K := 256) (N := 256)
              (tanh (kpre (R := 2000) (K := 256) (N := 256) x0 x1 x2 Facts₀.bitsLt_bf16_f32 Facts₀.broadcasts_S1x256_S2000x256))
              x3 x4 Facts₀.bitsLt_bf16_f32 Facts₀.broadcasts_S1x256_S2000x256))
            x5 x6 Facts₀.bitsLt_bf16_f32 Facts₀.broadcasts_S1x256_S2000x256))
          x7 x8 Facts₀.bitsLt_bf16_f32 Facts₀.broadcasts_S1x5_S2000x5) := by
    unfold k0_pay1 k0_pay2
    simp only [shapeCast_self]
    rfl
  rw [e]
  show Ideal.logistic (kpre (R := 2000) (K := 256) (N := 5) _ x7 x8 _ _ (ix2 p q)) = _
  rw [kpre_apply, row_tanh_kpre, row_tanh_kpre, row_tanh_kpre]
  rfl

/-- The second kernel's stored block (2000 rows of 160 inputs, 1 output), at (p, q). -/
theorem pay1_apply (x0 : Vec Ideal S2000x160 .f32) (x1 : Vec Ideal S160x256 .bf16) (x2 : Vec Ideal S1x256 .f32)
    (x3 : Vec Ideal S256x256 .bf16) (x4 : Vec Ideal S1x256 .f32) (x5 : Vec Ideal S256x256 .bf16) (x6 : Vec Ideal S1x256 .f32)
    (x7 : Vec Ideal S256x1 .bf16) (x8 : Vec Ideal S1x1 .f32) (p : Fin 2000) (q : Fin 1) :
    k1_pay1 (F := Ideal) (k1_pay2 (F := Ideal) x0 x1 x2 x3 x4 x5 x6 x7 x8) (ix2 p q)
      = mlp4 (row x0 p) (mat x1) (row0 x2) (mat x3) (row0 x4) (mat x5) (row0 x6) (mat x7) (row0 x8) q := by
  have e : k1_pay1 (F := Ideal) (k1_pay2 (F := Ideal) x0 x1 x2 x3 x4 x5 x6 x7 x8)
      = logistic (kpre (R := 2000) (K := 256) (N := 1)
          (tanh (kpre (R := 2000) (K := 256) (N := 256)
            (tanh (kpre (R := 2000) (K := 256) (N := 256)
              (tanh (kpre (R := 2000) (K := 160) (N := 256) x0 x1 x2 Facts₀.bitsLt_bf16_f32 Facts₀.broadcasts_S1x256_S2000x256))
              x3 x4 Facts₀.bitsLt_bf16_f32 Facts₀.broadcasts_S1x256_S2000x256))
            x5 x6 Facts₀.bitsLt_bf16_f32 Facts₀.broadcasts_S1x256_S2000x256))
          x7 x8 Facts₀.bitsLt_bf16_f32 Facts₀.broadcasts_S1x1_S2000x1) := by
    unfold k1_pay1 k1_pay2
    simp only [shapeCast_self]
    rfl
  rw [e]
  show Ideal.logistic (kpre (R := 2000) (K := 256) (N := 1) _ x7 x8 _ _ (ix2 p q)) = _
  rw [kpre_apply, row_tanh_kpre, row_tanh_kpre, row_tanh_kpre]
  rfl

end Cert.KernelIdeal.Pay

end
-- ==== Proof.Region0.lean ====
/-
  The first kernel's output array after its fifty grid points.

  Point t loads rows 2000·t … 2000·t + 1999 of the input array (all 256 columns) and the weights and
  bias rows whole, and writes back rows 2000·t … 2000·t + 1999 of the [100000, 5] output. What it writes
  is the network of each loaded row. The fifty blocks of rows tile the output, so afterwards entry
  (i, j) of the output is the network of row i of the input, at j — for whatever contents the region
  finds in its arrays.
-/
import proofs.«417367_j37452114821373_1_alg».proof.Proof.Gen.KernelIdeal.Frame
import proofs.«417367_j37452114821373_1_alg».proof.Proof.Pay

set_option maxRecDepth 16384

noncomputable section

namespace Cert.KernelIdeal.Region0

open Cert.KernelIdeal Cert.KernelIdeal.Gen Cert.KernelIdeal.Pay Cert.Net
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The region's arrays as it finds them, each at its literal type: the input rows, and the four layers' weights
    and bias rows. -/
abbrev xs (c : Dev nD) : FVec Ideal S100000x256 .f32 := V c main_v0
abbrev w0 (c : Dev nD) : FVec Ideal S256x256 .bf16 := V c main_v1
abbrev b0 (c : Dev nD) : FVec Ideal S1x256 .f32 := V c main_v5
abbrev w1 (c : Dev nD) : FVec Ideal S256x256 .bf16 := V c main_v2
abbrev b1 (c : Dev nD) : FVec Ideal S1x256 .f32 := V c main_v6
abbrev w2 (c : Dev nD) : FVec Ideal S256x256 .bf16 := V c main_v3
abbrev b2 (c : Dev nD) : FVec Ideal S1x256 .f32 := V c main_v7
abbrev w3 (c : Dev nD) : FVec Ideal S256x5 .bf16 := V c main_v4
abbrev b3 (c : Dev nD) : FVec Ideal S1x5 .f32 := V c main_v8

/-- The whole output: the network of every input row. -/
def G (c : Dev nD) : S100000x5.Idx → EReal :=
  mlp4Rows (xs V c) (mat (w0 V c)) (row0 (b0 V c)) (mat (w1 V c)) (row0 (b1 V c)) (mat (w2 V c)) (row0 (b2 V c))
    (mat (w3 V c)) (row0 (b3 V c))

theorem hz : (![0, 0] : Fin 2 → Nat) = fun _ => 0 := funext fun a => by fin_cases a <;> rfl

/-- The printed index maps over the grid: the row windows move with the point, the others stay at block (0, 0). -/
theorem index_rows : ∀ t : Fin cfg0.N, win0_0.index t (0 : Fin 2) = t.val ∧ win0_0.index t (1 : Fin 2) = 0
    ∧ win0_9.index t (0 : Fin 2) = t.val ∧ win0_9.index t (1 : Fin 2) = 0 :=
  (by decide +kernel : ∀ t : Fin grid0.N, _)
theorem index_whole : ∀ t : Fin cfg0.N, (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

theorem point_lt (t : Fin cfg0.N) : t.val < 50 := lt_of_lt_of_eq t.isLt N_0

/-- The input block at point t: rows 2000·t … of the input array. -/
theorem read_x (c : Dev nD) (t : Fin cfg0.N) (p : Fin 2000) (k : Fin 256) :
    iblk0 V c 0 t (ix2 p k) = xs V c (ix2 ⟨t.val * 2000 + p.val, by have := point_lt t; have := p.isLt; omega⟩ k) := by
  show V c main_v0 (((cfg0.win 0).blk t).view.emb (ix2 p k)) = V c main_v0 (ix2 _ k)
  refine congrArg (V c main_v0) (funext fun a => Fin.ext ?_)
  obtain ⟨e0, e1, -, -⟩ := index_rows t
  match a with
  | ⟨0, _⟩ => show win0_0.index t (0 : Fin 2) * 2000 + 1 * p.val = t.val * 2000 + p.val; rw [e0]; omega
  | ⟨1, _⟩ => show win0_0.index t (1 : Fin 2) * 256 + 1 * k.val = k.val; rw [e1]; omega

/-! A window that stays at block (0, 0) reads its array whole. -/

theorem read_w0 (c : Dev nD) (t : Fin cfg0.N) : mat (iblk0 V c 1 t) = mat (w0 V c) := by
  funext k j
  show V c main_v1 (((cfg0.win 1).blk t).view.emb (ix2 k j)) = V c main_v1 (ix2 k j)
  refine congrArg (V c main_v1) (funext fun a => Fin.ext ?_)
  obtain ⟨⟨e0, e1⟩, -⟩ := index_whole t
  match a with
  | ⟨0, _⟩ => show win0_1.index t (0 : Fin 2) * 256 + 1 * k.val = k.val; rw [e0]; omega
  | ⟨1, _⟩ => show win0_1.index t (1 : Fin 2) * 256 + 1 * j.val = j.val; rw [e1]; omega
theorem read_b0 (c : Dev nD) (t : Fin cfg0.N) : row0 (iblk0 V c 2 t) = row0 (b0 V c) := by
  funext j
  show V c main_v5 (((cfg0.win 2).blk t).view.emb (ix2 0 j)) = V c main_v5 (ix2 0 j)
  refine congrArg (V c main_v5) (funext fun a => Fin.ext ?_)
  obtain ⟨-, ⟨e0, e1⟩, -⟩ := index_whole t
  match a with
  | ⟨0, _⟩ => show win0_2.index t (0 : Fin 2) * 1 + 1 * 0 = 0; rw [e0]
  | ⟨1, _⟩ => show win0_2.index t (1 : Fin 2) * 256 + 1 * j.val = j.val; rw [e1]; omega
theorem read_w1 (c : Dev nD) (t : Fin cfg0.N) : mat (iblk0 V c 3 t) = mat (w1 V c) := by
  funext k j
  show V c main_v2 (((cfg0.win 3).blk t).view.emb (ix2 k j)) = V c main_v2 (ix2 k j)
  refine congrArg (V c main_v2) (funext fun a => Fin.ext ?_)
  obtain ⟨-, -, ⟨e0, e1⟩, -⟩ := index_whole t
  match a with
  | ⟨0, _⟩ => show win0_3.index t (0 : Fin 2) * 256 + 1 * k.val = k.val; rw [e0]; omega
  | ⟨1, _⟩ => show win0_3.index t (1 : Fin 2) * 256 + 1 * j.val = j.val; rw [e1]; omega
theorem read_b1 (c : Dev nD) (t : Fin cfg0.N) : row0 (iblk0 V c 4 t) = row0 (b1 V c) := by
  funext j
  show V c main_v6 (((cfg0.win 4).blk t).view.emb (ix2 0 j)) = V c main_v6 (ix2 0 j)
  refine congrArg (V c main_v6) (funext fun a => Fin.ext ?_)
  obtain ⟨-, -, -, ⟨e0, e1⟩, -⟩ := index_whole t
  match a with
  | ⟨0, _⟩ => show win0_4.index t (0 : Fin 2) * 1 + 1 * 0 = 0; rw [e0]
  | ⟨1, _⟩ => show win0_4.index t (1 : Fin 2) * 256 + 1 * j.val = j.val; rw [e1]; omega
theorem read_w2 (c : Dev nD) (t : Fin cfg0.N) : mat (iblk0 V c 5 t) = mat (w2 V c) := by
  funext k j
  show V c main_v3 (((cfg0.win 5).blk t).view.emb (ix2 k j)) = V c main_v3 (ix2 k j)
  refine congrArg (V c main_v3) (funext fun a => Fin.ext ?_)
  obtain ⟨-, -, -, -, ⟨e0, e1⟩, -⟩ := index_whole t
  match a with
  | ⟨0, _⟩ => show win0_5.index t (0 : Fin 2) * 256 + 1 * k.val = k.val; rw [e0]; omega
  | ⟨1, _⟩ => show win0_5.index t (1 : Fin 2) * 256 + 1 * j.val = j.val; rw [e1]; omega
theorem read_b2 (c : Dev nD) (t : Fin cfg0.N) : row0 (iblk0 V c 6 t) = row0 (b2 V c) := by
  funext j
  show V c main_v7 (((cfg0.win 6).blk t).view.emb (ix2 0 j)) = V c main_v7 (ix2 0 j)
  refine congrArg (V c main_v7) (funext fun a => Fin.ext ?_)
  obtain ⟨-, -, -, -, -, ⟨e0, e1⟩, -⟩ := index_whole t
  match a with
  | ⟨0, _⟩ => show win0_6.index t (0 : Fin 2) * 1 + 1 * 0 = 0; rw [e0]
  | ⟨1, _⟩ => show win0_6.index t (1 : Fin 2) * 256 + 1 * j.val = j.val; rw [e1]; omega
theorem read_w3 (c : Dev nD) (t : Fin cfg0.N) : mat (iblk0 V c 7 t) = mat (w3 V c) := by
  funext k j
  show V c main_v4 (((cfg0.win 7).blk t).view.emb (ix2 k j)) = V c main_v4 (ix2 k j)
  refine congrArg (V c main_v4) (funext fun a => Fin.ext ?_)
  obtain ⟨-, -, -, -, -, -, ⟨e0, e1⟩, -⟩ := index_whole t
  match a with
  | ⟨0, _⟩ => show win0_7.index t (0 : Fin 2) * 256 + 1 * k.val = k.val; rw [e0]; omega
  | ⟨1, _⟩ => show win0_7.index t (1 : Fin 2) * 5 + 1 * j.val = j.val; rw [e1]; omega
theorem read_b3 (c : Dev nD) (t : Fin cfg0.N) : row0 (iblk0 V c 8 t) = row0 (b3 V c) := by
  funext j
  show V c main_v8 (((cfg0.win 8).blk t).view.emb (ix2 0 j)) = V c main_v8 (ix2 0 j)
  refine congrArg (V c main_v8) (funext fun a => Fin.ext ?_)
  obtain ⟨-, -, -, -, -, -, -, ⟨e0, e1⟩⟩ := index_whole t
  match a with
  | ⟨0, _⟩ => show win0_8.index t (0 : Fin 2) * 1 + 1 * 0 = 0; rw [e0]
  | ⟨1, _⟩ => show win0_8.index t (1 : Fin 2) * 5 + 1 * j.val = j.val; rw [e1]; omega

/-- The output block's entry (p, q) is the array's entry (2000·t + p, q). -/
theorem emb_out (t : Fin cfg0.N) (p : Fin 2000) (q : Fin 5) :
    (((cfg0.win 9).blk t).view.emb (ix2 p q) : S100000x5.Idx)
      = ix2 ⟨t.val * 2000 + p.val, by have := point_lt t; have := p.isLt; omega⟩ q := by
  funext a
  refine Fin.ext ?_
  obtain ⟨-, -, e0, e1⟩ := index_rows t
  match a with
  | ⟨0, _⟩ => show win0_9.index t (0 : Fin 2) * 2000 + 1 * p.val = t.val * 2000 + p.val; rw [e0]; omega
  | ⟨1, _⟩ => show win0_9.index t (1 : Fin 2) * 5 + 1 * q.val = q.val; rw [e1]; omega

/-- WHAT POINT t WRITES BACK is block t of the network of every row. -/
theorem flushed_eq (c : Dev nD) (t : Fin cfg0.N) :
    (dat0 V c).flushed 9 t = ((cfg0.win 9).blk t).view.read (Elt Ideal) (G V c) := by
  show (cfg0.win 9).cut (grid0.coords t) ((dat0 V c).after 9 t) = _
  rw [after0_9]
  unfold out0_9
  rw [View.canon_unit_zero hz]
  simp only [View.ld_unit_zero (S := S2000x256) hz, View.ld_unit_zero (S := S256x256) hz, View.ld_unit_zero (S := S1x256) hz,
    View.ld_unit_zero (S := S256x5) hz, View.ld_unit_zero (S := S1x5) hz]
  funext j
  obtain ⟨p, q, rfl⟩ : ∃ (p : Fin 2000) (q : Fin 5), j = ix2 p q := ⟨j 0, j 1, eq_ix2 j⟩
  show k0_pay1 (F := Ideal) (k0_pay2 (F := Ideal) (iblk0 V c 0 t) (iblk0 V c 1 t) (iblk0 V c 2 t) (iblk0 V c 3 t) (iblk0 V c 4 t)
      (iblk0 V c 5 t) (iblk0 V c 6 t) (iblk0 V c 7 t) (iblk0 V c 8 t)) (ix2 p q) = G V c (((cfg0.win 9).blk t).view.emb (ix2 p q))
  refine (pay0_apply (iblk0 V c 0 t) (iblk0 V c 1 t) (iblk0 V c 2 t) (iblk0 V c 3 t) (iblk0 V c 4 t)
      (iblk0 V c 5 t) (iblk0 V c 6 t) (iblk0 V c 7 t) (iblk0 V c 8 t) p q).trans ?_
  rw [emb_out t p q, read_w0, read_b0, read_w1, read_b1, read_w2, read_b2, read_w3, read_b3]
  have hx : row (iblk0 V c 0 t) p = row (xs V c) ⟨t.val * 2000 + p.val, by have := point_lt t; have := p.isLt; omega⟩ :=
    funext fun k => read_x V c t p k
  rw [hx]
  rfl

/-- An index of the array is in point t's block iff each coordinate is in the block's range on its axis. -/
theorem mem_blk (t : Fin cfg0.N) (i : S100000x5.Idx) :
    i ∈ ((cfg0.win 9).blk t).view.set ↔ ∀ a : Fin 2, win0_9.index t a * S2000x5.size a ≤ (i a).val ∧ (i a).val < win0_9.index t a * S2000x5.size a + S2000x5.size a := by
  show i ∈ ((View.whole main_v9).slice (win0_9.rect t)).set ↔ _
  rw [View.set_slice_whole, Rect.mem_set_unit]
  exact Iff.rfl

/-- Every index of the output lies in the block of the point its row falls in. -/
theorem cover (i : S100000x5.Idx) : ∃ t : Fin cfg0.N, (cfg0.win 9).flush t = true ∧ i ∈ ((cfg0.win 9).blk t).view.set := by
  have hi0 : (i 0).val < 100000 := (i 0).isLt
  have hi1 : (i 1).val < 5 := (i 1).isLt
  have ht : (i 0).val / 2000 < cfg0.N := by rw [show cfg0.N = 50 from N_0]; omega
  refine ⟨⟨(i 0).val / 2000, ht⟩, flush0_9 _, ?_⟩
  rw [mem_blk]
  obtain ⟨-, -, e0, e1⟩ := index_rows ⟨(i 0).val / 2000, ht⟩
  intro a
  match a with
  | ⟨0, _⟩ =>
    show win0_9.index ⟨(i 0).val / 2000, ht⟩ (0 : Fin 2) * 2000 ≤ (i 0).val ∧ (i 0).val < win0_9.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win0_9.index ⟨(i 0).val / 2000, ht⟩ (1 : Fin 2) * 5 ≤ (i 1).val ∧ (i 1).val < win0_9.index ⟨(i 0).val / 2000, ht⟩ (1 : Fin 2) * 5 + 5
    rw [e1]
    omega

/-- THE OUTPUT ARRAY after the region: the network of every input row. -/
theorem final (c : Dev nD) : (dat0 V c).arrAt 9 cfg0.N = G V c :=
  (dat0 V c).arrAt_eq_of_cover 9 (G V c) (fun t _ => flushed_eq V c t) cover

end Cert.KernelIdeal.Region0

end
-- ==== Proof.Region1.lean ====
/-
  The second kernel's output array after its fifty grid points.

  Point t loads rows 2000·t … 2000·t + 1999 of the input array (all 160 columns) and the weights and
  bias rows whole, and writes back rows 2000·t … 2000·t + 1999 of the [100000, 1] output. What it writes
  is the network of each loaded row. The fifty blocks of rows tile the output, so afterwards entry
  (i, j) of the output is the network of row i of the input, at j — for whatever contents the region
  finds in its arrays.
-/
import proofs.«417367_j37452114821373_1_alg».proof.Proof.Gen.KernelIdeal.Frame
import proofs.«417367_j37452114821373_1_alg».proof.Proof.Pay

set_option maxRecDepth 16384

noncomputable section

namespace Cert.KernelIdeal.Region1

open Cert.KernelIdeal Cert.KernelIdeal.Gen Cert.KernelIdeal.Pay Cert.Net
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The region's arrays as it finds them, each at its literal type: the input rows, and the four layers' weights
    and bias rows. -/
abbrev xs (c : Dev nD) : FVec Ideal S100000x160 .f32 := V c main_v13
abbrev w0 (c : Dev nD) : FVec Ideal S160x256 .bf16 := V c main_v14
abbrev b0 (c : Dev nD) : FVec Ideal S1x256 .f32 := V c main_v18
abbrev w1 (c : Dev nD) : FVec Ideal S256x256 .bf16 := V c main_v15
abbrev b1 (c : Dev nD) : FVec Ideal S1x256 .f32 := V c main_v19
abbrev w2 (c : Dev nD) : FVec Ideal S256x256 .bf16 := V c main_v16
abbrev b2 (c : Dev nD) : FVec Ideal S1x256 .f32 := V c main_v20
abbrev w3 (c : Dev nD) : FVec Ideal S256x1 .bf16 := V c main_v17
abbrev b3 (c : Dev nD) : FVec Ideal S1x1 .f32 := V c main_v21

/-- The whole output: the network of every input row. -/
def G (c : Dev nD) : S100000x1.Idx → EReal :=
  mlp4Rows (xs V c) (mat (w0 V c)) (row0 (b0 V c)) (mat (w1 V c)) (row0 (b1 V c)) (mat (w2 V c)) (row0 (b2 V c))
    (mat (w3 V c)) (row0 (b3 V c))

theorem hz : (![0, 0] : Fin 2 → Nat) = fun _ => 0 := funext fun a => by fin_cases a <;> rfl

/-- The printed index maps over the grid: the row windows move with the point, the others stay at block (0, 0). -/
theorem index_rows : ∀ t : Fin cfg1.N, win1_0.index t (0 : Fin 2) = t.val ∧ win1_0.index t (1 : Fin 2) = 0
    ∧ win1_9.index t (0 : Fin 2) = t.val ∧ win1_9.index t (1 : Fin 2) = 0 :=
  (by decide +kernel : ∀ t : Fin grid1.N, _)
theorem index_whole : ∀ t : Fin cfg1.N, (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0) :=
  (by decide +kernel : ∀ t : Fin grid1.N, _)

theorem point_lt (t : Fin cfg1.N) : t.val < 50 := lt_of_lt_of_eq t.isLt N_1

/-- The input block at point t: rows 2000·t … of the input array. -/
theorem read_x (c : Dev nD) (t : Fin cfg1.N) (p : Fin 2000) (k : Fin 160) :
    iblk1 V c 0 t (ix2 p k) = xs V c (ix2 ⟨t.val * 2000 + p.val, by have := point_lt t; have := p.isLt; omega⟩ k) := by
  show V c main_v13 (((cfg1.win 0).blk t).view.emb (ix2 p k)) = V c main_v13 (ix2 _ k)
  refine congrArg (V c main_v13) (funext fun a => Fin.ext ?_)
  obtain ⟨e0, e1, -, -⟩ := index_rows t
  match a with
  | ⟨0, _⟩ => show win1_0.index t (0 : Fin 2) * 2000 + 1 * p.val = t.val * 2000 + p.val; rw [e0]; omega
  | ⟨1, _⟩ => show win1_0.index t (1 : Fin 2) * 160 + 1 * k.val = k.val; rw [e1]; omega

/-! A window that stays at block (0, 0) reads its array whole. -/

theorem read_w0 (c : Dev nD) (t : Fin cfg1.N) : mat (iblk1 V c 1 t) = mat (w0 V c) := by
  funext k j
  show V c main_v14 (((cfg1.win 1).blk t).view.emb (ix2 k j)) = V c main_v14 (ix2 k j)
  refine congrArg (V c main_v14) (funext fun a => Fin.ext ?_)
  obtain ⟨⟨e0, e1⟩, -⟩ := index_whole t
  match a with
  | ⟨0, _⟩ => show win1_1.index t (0 : Fin 2) * 160 + 1 * k.val = k.val; rw [e0]; omega
  | ⟨1, _⟩ => show win1_1.index t (1 : Fin 2) * 256 + 1 * j.val = j.val; rw [e1]; omega
theorem read_b0 (c : Dev nD) (t : Fin cfg1.N) : row0 (iblk1 V c 2 t) = row0 (b0 V c) := by
  funext j
  show V c main_v18 (((cfg1.win 2).blk t).view.emb (ix2 0 j)) = V c main_v18 (ix2 0 j)
  refine congrArg (V c main_v18) (funext fun a => Fin.ext ?_)
  obtain ⟨-, ⟨e0, e1⟩, -⟩ := index_whole t
  match a with
  | ⟨0, _⟩ => show win1_2.index t (0 : Fin 2) * 1 + 1 * 0 = 0; rw [e0]
  | ⟨1, _⟩ => show win1_2.index t (1 : Fin 2) * 256 + 1 * j.val = j.val; rw [e1]; omega
theorem read_w1 (c : Dev nD) (t : Fin cfg1.N) : mat (iblk1 V c 3 t) = mat (w1 V c) := by
  funext k j
  show V c main_v15 (((cfg1.win 3).blk t).view.emb (ix2 k j)) = V c main_v15 (ix2 k j)
  refine congrArg (V c main_v15) (funext fun a => Fin.ext ?_)
  obtain ⟨-, -, ⟨e0, e1⟩, -⟩ := index_whole t
  match a with
  | ⟨0, _⟩ => show win1_3.index t (0 : Fin 2) * 256 + 1 * k.val = k.val; rw [e0]; omega
  | ⟨1, _⟩ => show win1_3.index t (1 : Fin 2) * 256 + 1 * j.val = j.val; rw [e1]; omega
theorem read_b1 (c : Dev nD) (t : Fin cfg1.N) : row0 (iblk1 V c 4 t) = row0 (b1 V c) := by
  funext j
  show V c main_v19 (((cfg1.win 4).blk t).view.emb (ix2 0 j)) = V c main_v19 (ix2 0 j)
  refine congrArg (V c main_v19) (funext fun a => Fin.ext ?_)
  obtain ⟨-, -, -, ⟨e0, e1⟩, -⟩ := index_whole t
  match a with
  | ⟨0, _⟩ => show win1_4.index t (0 : Fin 2) * 1 + 1 * 0 = 0; rw [e0]
  | ⟨1, _⟩ => show win1_4.index t (1 : Fin 2) * 256 + 1 * j.val = j.val; rw [e1]; omega
theorem read_w2 (c : Dev nD) (t : Fin cfg1.N) : mat (iblk1 V c 5 t) = mat (w2 V c) := by
  funext k j
  show V c main_v16 (((cfg1.win 5).blk t).view.emb (ix2 k j)) = V c main_v16 (ix2 k j)
  refine congrArg (V c main_v16) (funext fun a => Fin.ext ?_)
  obtain ⟨-, -, -, -, ⟨e0, e1⟩, -⟩ := index_whole t
  match a with
  | ⟨0, _⟩ => show win1_5.index t (0 : Fin 2) * 256 + 1 * k.val = k.val; rw [e0]; omega
  | ⟨1, _⟩ => show win1_5.index t (1 : Fin 2) * 256 + 1 * j.val = j.val; rw [e1]; omega
theorem read_b2 (c : Dev nD) (t : Fin cfg1.N) : row0 (iblk1 V c 6 t) = row0 (b2 V c) := by
  funext j
  show V c main_v20 (((cfg1.win 6).blk t).view.emb (ix2 0 j)) = V c main_v20 (ix2 0 j)
  refine congrArg (V c main_v20) (funext fun a => Fin.ext ?_)
  obtain ⟨-, -, -, -, -, ⟨e0, e1⟩, -⟩ := index_whole t
  match a with
  | ⟨0, _⟩ => show win1_6.index t (0 : Fin 2) * 1 + 1 * 0 = 0; rw [e0]
  | ⟨1, _⟩ => show win1_6.index t (1 : Fin 2) * 256 + 1 * j.val = j.val; rw [e1]; omega
theorem read_w3 (c : Dev nD) (t : Fin cfg1.N) : mat (iblk1 V c 7 t) = mat (w3 V c) := by
  funext k j
  show V c main_v17 (((cfg1.win 7).blk t).view.emb (ix2 k j)) = V c main_v17 (ix2 k j)
  refine congrArg (V c main_v17) (funext fun a => Fin.ext ?_)
  obtain ⟨-, -, -, -, -, -, ⟨e0, e1⟩, -⟩ := index_whole t
  match a with
  | ⟨0, _⟩ => show win1_7.index t (0 : Fin 2) * 256 + 1 * k.val = k.val; rw [e0]; omega
  | ⟨1, _⟩ => show win1_7.index t (1 : Fin 2) * 1 + 1 * j.val = j.val; rw [e1]; omega
theorem read_b3 (c : Dev nD) (t : Fin cfg1.N) : row0 (iblk1 V c 8 t) = row0 (b3 V c) := by
  funext j
  show V c main_v21 (((cfg1.win 8).blk t).view.emb (ix2 0 j)) = V c main_v21 (ix2 0 j)
  refine congrArg (V c main_v21) (funext fun a => Fin.ext ?_)
  obtain ⟨-, -, -, -, -, -, -, ⟨e0, e1⟩⟩ := index_whole t
  match a with
  | ⟨0, _⟩ => show win1_8.index t (0 : Fin 2) * 1 + 1 * 0 = 0; rw [e0]
  | ⟨1, _⟩ => show win1_8.index t (1 : Fin 2) * 1 + 1 * j.val = j.val; rw [e1]; omega

/-- The output block's entry (p, q) is the array's entry (2000·t + p, q). -/
theorem emb_out (t : Fin cfg1.N) (p : Fin 2000) (q : Fin 1) :
    (((cfg1.win 9).blk t).view.emb (ix2 p q) : S100000x1.Idx)
      = ix2 ⟨t.val * 2000 + p.val, by have := point_lt t; have := p.isLt; omega⟩ q := by
  funext a
  refine Fin.ext ?_
  obtain ⟨-, -, e0, e1⟩ := index_rows t
  match a with
  | ⟨0, _⟩ => show win1_9.index t (0 : Fin 2) * 2000 + 1 * p.val = t.val * 2000 + p.val; rw [e0]; omega
  | ⟨1, _⟩ => show win1_9.index t (1 : Fin 2) * 1 + 1 * q.val = q.val; rw [e1]; omega

/-- WHAT POINT t WRITES BACK is block t of the network of every row. -/
theorem flushed_eq (c : Dev nD) (t : Fin cfg1.N) :
    (dat1 V c).flushed 9 t = ((cfg1.win 9).blk t).view.read (Elt Ideal) (G V c) := by
  show (cfg1.win 9).cut (grid1.coords t) ((dat1 V c).after 9 t) = _
  rw [after1_9]
  unfold out1_9
  rw [View.canon_unit_zero hz]
  simp only [View.ld_unit_zero (S := S2000x160) hz, View.ld_unit_zero (S := S160x256) hz, View.ld_unit_zero (S := S1x256) hz,
    View.ld_unit_zero (S := S256x256) hz, View.ld_unit_zero (S := S256x1) hz, View.ld_unit_zero (S := S1x1) hz]
  funext j
  obtain ⟨p, q, rfl⟩ : ∃ (p : Fin 2000) (q : Fin 1), j = ix2 p q := ⟨j 0, j 1, eq_ix2 j⟩
  show k1_pay1 (F := Ideal) (k1_pay2 (F := Ideal) (iblk1 V c 0 t) (iblk1 V c 1 t) (iblk1 V c 2 t) (iblk1 V c 3 t) (iblk1 V c 4 t)
      (iblk1 V c 5 t) (iblk1 V c 6 t) (iblk1 V c 7 t) (iblk1 V c 8 t)) (ix2 p q) = G V c (((cfg1.win 9).blk t).view.emb (ix2 p q))
  refine (pay1_apply (iblk1 V c 0 t) (iblk1 V c 1 t) (iblk1 V c 2 t) (iblk1 V c 3 t) (iblk1 V c 4 t)
      (iblk1 V c 5 t) (iblk1 V c 6 t) (iblk1 V c 7 t) (iblk1 V c 8 t) p q).trans ?_
  rw [emb_out t p q, read_w0, read_b0, read_w1, read_b1, read_w2, read_b2, read_w3, read_b3]
  have hx : row (iblk1 V c 0 t) p = row (xs V c) ⟨t.val * 2000 + p.val, by have := point_lt t; have := p.isLt; omega⟩ :=
    funext fun k => read_x V c t p k
  rw [hx]
  rfl

/-- An index of the array is in point t's block iff each coordinate is in the block's range on its axis. -/
theorem mem_blk (t : Fin cfg1.N) (i : S100000x1.Idx) :
    i ∈ ((cfg1.win 9).blk t).view.set ↔ ∀ a : Fin 2, win1_9.index t a * S2000x1.size a ≤ (i a).val ∧ (i a).val < win1_9.index t a * S2000x1.size a + S2000x1.size a := by
  show i ∈ ((View.whole main_v22).slice (win1_9.rect t)).set ↔ _
  rw [View.set_slice_whole, Rect.mem_set_unit]
  exact Iff.rfl

/-- Every index of the output lies in the block of the point its row falls in. -/
theorem cover (i : S100000x1.Idx) : ∃ t : Fin cfg1.N, (cfg1.win 9).flush t = true ∧ i ∈ ((cfg1.win 9).blk t).view.set := by
  have hi0 : (i 0).val < 100000 := (i 0).isLt
  have hi1 : (i 1).val < 1 := (i 1).isLt
  have ht : (i 0).val / 2000 < cfg1.N := by rw [show cfg1.N = 50 from N_1]; omega
  refine ⟨⟨(i 0).val / 2000, ht⟩, flush1_9 _, ?_⟩
  rw [mem_blk]
  obtain ⟨-, -, e0, e1⟩ := index_rows ⟨(i 0).val / 2000, ht⟩
  intro a
  match a with
  | ⟨0, _⟩ =>
    show win1_9.index ⟨(i 0).val / 2000, ht⟩ (0 : Fin 2) * 2000 ≤ (i 0).val ∧ (i 0).val < win1_9.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win1_9.index ⟨(i 0).val / 2000, ht⟩ (1 : Fin 2) * 1 ≤ (i 1).val ∧ (i 1).val < win1_9.index ⟨(i 0).val / 2000, ht⟩ (1 : Fin 2) * 1 + 1
    rw [e1]
    omega

/-- THE OUTPUT ARRAY after the region: the network of every input row. -/
theorem final (c : Dev nD) : (dat1 V c).arrAt 9 cfg1.N = G V c :=
  (dat1 V c).arrAt_eq_of_cover 9 (G V c) (fun t _ => flushed_eq V c t) cover

end Cert.KernelIdeal.Region1

end
-- ==== Proof.Take.lean ====
/-
  The gather between the two kernels, as the kernel's program computes it.

  Row 1 of the index pairs is read as 3 200 000 words; a negative word has the table's length
  100 000 added (an index from the end); each word, as a start index, picks a row of the
  [100000, 5] table, clamped into the table; and a row whose start index lies outside [0, 99999] is
  replaced by a fill pattern. When every word is in [-100000, 100000) no start index lies outside,
  and the result is the gathered rows.
-/
import proofs.«417367_j37452114821373_1_alg».proof.KernelIdeal

noncomputable section

namespace Cert.KernelIdeal.Take

open Cert.KernelIdeal Idealize.ShloMosaic

variable {F : FTy → Type} [FloatOps F] [Facts]

/-- Row 1 of the index pairs: the edge ends the second stage gathers by. -/
def ends (a1 : IVec S2x3200000 32) : IVec S3200000 32 :=
  shapeCast S3200000 (extractStridedSlice S1x3200000 ![1, 0] a1 Facts₀.slices_S2x3200000_S1x3200000_1_0)
    Facts₀.shapeCasts_S1x3200000_S3200000

/-- An index from the end (a negative word) has the table's length added. -/
def wrapped (e : IVec S3200000 32) : IVec S3200000 32 :=
  select (cmpi .slt e (broadcastInDim S3200000 ![] Facts₀.bcast_S_S3200000 (constantI S_ 32 0#32)))
    (addi e (broadcastInDim S3200000 ![] Facts₀.bcast_S_S3200000 (constantI S_ 32 100000#32))) e

/-- The start indices of the gather: one per edge. -/
def starts (e : IVec S3200000 32) : IVec S3200000x1 32 :=
  broadcastInDim S3200000x1 ![0] Facts₀.bcast_S3200000_S3200000x1_0 (wrapped e)

/-- Per edge: is its start index a row of the table, 0 ≤ s ≤ 99999? -/
def inside (s : IVec S3200000x1 32) : IVec S3200000 1 :=
  Host.reduce IntOp.andi
    (andi (cmpi .sge s (broadcastInDim S3200000x1 ![] Facts₀.bcast_S_S3200000x1 (constantI S_ 32 0#32)))
      (cmpi .sle s (broadcastInDim S3200000x1 ![0, 1] Facts₀.bcast_S1x1_S3200000x1_0_1
        (broadcastInDim S1x1 ![1] Facts₀.bcast_S1_S1x1_1 (constantI S1 32 99999#32)))))
    (constantI S_ 1 1#1) Facts₀.reducesTo_S3200000x1_S3200000_d1 Facts₀.h_S_

/-- The gathered rows alone. -/
def rows (o : FVec F S100000x5 .f32) (e : IVec S3200000 32) : FVec F S3200000x5 .f32 :=
  Host.gather gather_S100000x5_S3200000x1_S3200000x5_1_0_n_n_0_1_15 o (starts e)

/-- The gathered rows, those with a start index outside the table replaced by the fill pattern. -/
def take (o : FVec F S100000x5 .f32) (e : IVec S3200000 32) : FVec F S3200000x5 .f32 :=
  select (broadcastInDim S3200000x5 ![0] Facts₀.bcast_S3200000_S3200000x5_0 (inside (starts e)))
    (rows o e)
    (broadcastInDim S3200000x5 ![] Facts₀.bcast_S_S3200000x5 (constant S_ .f32 0x7FC00000#32))

end Cert.KernelIdeal.Take

end
-- ==== Proof.InRange.lean ====
/-
  Under the precondition the masked gather is the plain gather.

  The precondition's last conjunct says every word of row 1 of the index pairs lies in
  [-100000, 100000): an and over all 3 200 000 lanes of (w ≥ -100000) and (w < 100000), signed. A word in
  that range, with the table's length 100 000 added when it is negative, lies in [0, 99999]; so every
  start index is a row of the table, the mask is 1 at every edge, and the select keeps the gathered row.
-/
import proofs.«417367_j37452114821373_1_alg».proof.Pre_finite_inputs
import proofs.«417367_j37452114821373_1_alg».proof.Proof.Take
import Idealize.ShloMosaic.Lib.ReduceAll
import Idealize.ShloMosaic.PureOps.Ideal

noncomputable section

namespace Cert.KernelIdeal.Take

open Cert.KernelIdeal Idealize.ShloMosaic

/-- The word 4294867296 is -100000 in two's complement at 32 bits. -/
theorem toInt_lo : (4294867296#32 : BitVec 32).toInt = -100000 := by decide
theorem toInt_hi : (100000#32 : BitVec 32).toInt = 100000 := by decide
theorem toInt_zero : (0#32 : BitVec 32).toInt = 0 := by decide
theorem toInt_top : (99999#32 : BitVec 32).toInt = 99999 := by decide

/-- One word: if -100000 ≤ w < 100000 (signed), then v = w + 100000 for w < 0 and v = w otherwise has
    0 ≤ v ≤ 99999 (signed). The sum does not wrap: for -100000 ≤ w < 0 it is in [0, 100000). -/
theorem word_inside (w : BitVec 32) (h1 : IntOp.cmpi .sge w 4294867296#32 = 1#1)
    (h2 : IntOp.cmpi .slt w 100000#32 = 1#1) :
    IntOp.andi
      (IntOp.cmpi .sge (Scalar.select (IntOp.cmpi .slt w 0#32) (IntOp.addi w 100000#32) w) 0#32)
      (IntOp.cmpi .sle (Scalar.select (IntOp.cmpi .slt w 0#32) (IntOp.addi w 100000#32) w) 99999#32) = 1#1 := by
  rw [IntOp.cmpi_sge, toInt_lo] at h1
  rw [IntOp.cmpi_slt, toInt_hi] at h2
  rw [IntOp.andi_eq_one, IntOp.cmpi_sge, IntOp.cmpi_sle, toInt_zero, toInt_top]
  unfold Scalar.select
  by_cases hn : IntOp.cmpi .slt w 0#32 = 1
  · rw [if_pos hn]
    replace hn : IntOp.cmpi .slt w 0#32 = 1#1 := hn
    rw [IntOp.cmpi_slt, toInt_zero] at hn
    unfold IntOp.addi
    rw [BitVec.toInt_add, toInt_hi, Int.bmod_eq_of_le (by omega) (by omega)]
    omega
  · rw [if_neg hn]
    replace hn : ¬ IntOp.cmpi .slt w 0#32 = 1#1 := hn
    rw [IntOp.cmpi_slt, toInt_zero] at hn
    omega

/-- A left fold by `and` over one-bit words that starts at 1 and meets only 1s comes out 1. -/
theorem foldl_andi_ones {ι : Type} (f : ι → BitVec 1) :
    ∀ (l : List ι) (init : BitVec 1), init = 1#1 → (∀ n ∈ l, f n = 1#1) →
      l.foldl (fun r n => IntOp.andi r (f n)) init = 1#1
  | [], _, h, _ => h
  | a :: l, init, h, hl => by
    rw [List.foldl_cons]
    exact foldl_andi_ones f l _ (IntOp.andi_eq_one.2 ⟨h, hl a List.mem_cons_self⟩)
      (fun n hn => hl n (List.mem_cons_of_mem _ hn))

variable [Facts]

/-- When every word e i is in [-100000, 100000), every start index is a row of the table: the mask is 1 at
    every edge j. The and over the unit axis at j folds, from 1, the lanes (j, ·), each the two compares
    of the wrapped word of an edge — 1 by `word_inside`. -/
theorem inside_of_range (e : IVec S3200000 32)
    (he : ∀ i, IntOp.cmpi .sge (e i) 4294867296#32 = 1#1 ∧ IntOp.cmpi .slt (e i) 100000#32 = 1#1) :
    inside (starts e) = fun _ => 1#1 := by
  funext j
  unfold inside
  rw [Host.reduce_eq_foldl]
  refine foldl_andi_ones _ _ _ rfl (fun i _ => ?_)
  exact word_inside (e _) (he _).1 (he _).2

/-- With the mask 1 everywhere the select keeps its first branch, the gathered rows, at every index. -/
theorem take_eq_rows_of_range {F : FTy → Type} [FloatOps F] (o : FVec F S100000x5 .f32) (e : IVec S3200000 32)
    (he : ∀ i, IntOp.cmpi .sge (e i) 4294867296#32 = 1#1 ∧ IntOp.cmpi .slt (e i) 100000#32 = 1#1) :
    take o e = rows o e := by
  funext i
  unfold take
  rw [inside_of_range e he]
  show Scalar.select 1#1 _ _ = _
  exact if_pos rfl

/-- The precondition is a conjunction (a chain of one-bit ands) whose last conjunct is the and, over all
    3 200 000 lanes i, of (ends a1 i ≥ -100000) and (ends a1 i < 100000). Its value 1 gives the last conjunct 1,
    so every lane is 1, which is the range hypothesis of `take_eq_rows_of_range` at e = ends a1. -/
theorem take_eq_rows_of_pre [Cert.Pre_finite_inputs.Facts] [Cert.KernelIdeal.Facts]
    (a0 : FVec Ideal Cert.Pre_finite_inputs.S100000x8 .f32) (a1 : IVec Cert.Pre_finite_inputs.S2x3200000 32)
    (a2 : FVec Ideal Cert.Pre_finite_inputs.S3200000x8 .f32) (a3 : FVec Ideal Cert.Pre_finite_inputs.S256x256 .f32)
    (a4 : FVec Ideal Cert.Pre_finite_inputs.S256 .f32) (a5 : FVec Ideal Cert.Pre_finite_inputs.S256x256 .f32)
    (a6 : FVec Ideal Cert.Pre_finite_inputs.S256 .f32) (a7 : FVec Ideal Cert.Pre_finite_inputs.S256x256 .f32)
    (a8 : FVec Ideal Cert.Pre_finite_inputs.S256 .f32) (a9 : FVec Ideal Cert.Pre_finite_inputs.S256x5 .f32)
    (a10 : FVec Ideal Cert.Pre_finite_inputs.S5 .f32) (a11 : FVec Ideal Cert.Pre_finite_inputs.S160x256 .f32)
    (a12 : FVec Ideal Cert.Pre_finite_inputs.S256 .f32) (a13 : FVec Ideal Cert.Pre_finite_inputs.S256x256 .f32)
    (a14 : FVec Ideal Cert.Pre_finite_inputs.S256 .f32) (a15 : FVec Ideal Cert.Pre_finite_inputs.S256x256 .f32)
    (a16 : FVec Ideal Cert.Pre_finite_inputs.S256 .f32) (a17 : FVec Ideal Cert.Pre_finite_inputs.S256x1 .f32)
    (a18 : FVec Ideal Cert.Pre_finite_inputs.S1 .f32)
    (h : Cert.Pre_finite_inputs.fn (F := Ideal) a0 a1 a2 a3 a4 a5 a6 a7 a8 a9 a10 a11 a12 a13 a14 a15 a16 a17 a18 = fun _ => 1#1)
    (o : FVec Ideal Cert.KernelIdeal.S100000x5 .f32) :
    take (F := Ideal) o (ends a1) = rows (F := Ideal) o (ends a1) := by
  refine take_eq_rows_of_range o (ends a1) (fun i => ?_)
  have h0 := congrFun h (fun a => a.elim0)
  have h1 := (IntOp.andi_eq_one.1 h0).2
  haveI : Subsingleton Cert.Pre_finite_inputs.S_.Idx := ⟨fun a b => funext fun d => d.elim0⟩
  have h2 := Host.reduce_andi_all _ _ _ _ _ h1 i
  exact IntOp.andi_eq_one.1 h2

end Cert.KernelIdeal.Take

end
-- ==== Proof.LibTRefCast.lean ====
/-
  Typed references of a called function's values: a value written through a typed reference and read back through
  the same reference is the value, whatever proofs the two spellings of the reference carry.
-/
import Idealize.ShloMosaic.Lib.StableHlo

namespace Cert.Lib

open Idealize.ShloMosaic Idealize.ShloMosaic.StableHlo

/-- Contents stored at the value's type as contents of the buffer and read back at the value's type are unchanged:
    the two transports along the reference's type equation cancel. -/
theorem ofBuf_toBuf {sig : RefSig} {Val : EltTy → Type} {T : BufTy} (x : TRef sig T) (v : T.Contents Val) :
    x.ofBuf (x.toBuf v) = v := by
  obtain ⟨r, h, a, b⟩ := x
  subst h
  rfl

end Cert.Lib
-- ==== Proof.HostGlue.lean ====
/-
  What the host operations around the two kernels leave in the buffers the kernels read.

  Before the first kernel the edge attributes are regrouped 256 to a row, each weight matrix is rounded
  to the narrower format and each bias vector reshaped to one row. Between the kernels row 1 of the
  index pairs is cut out, the first kernel's rows are gathered by it, the result is regrouped 160 to a row,
  and the second stage's weights and biases are prepared the same way. After the second kernel its one
  column is reshaped to a vector. No operation writes an argument.
-/
import proofs.«417367_j37452114821373_1_alg».proof.Proof.Gen.KernelIdeal.Frame
import proofs.«417367_j37452114821373_1_alg».proof.Proof.Take
import proofs.«417367_j37452114821373_1_alg».proof.Proof.LibTRefCast
import Idealize.ShloMosaic.Lib.StableHlo.Run

set_option maxRecDepth 16384

noncomputable section

namespace Cert.KernelIdeal.Glue

open Cert.KernelIdeal Cert.KernelIdeal.Gen Cert.KernelIdeal.Take
open Idealize.ShloMosaic Idealize.ShloMosaic.TcCoe Idealize.SL.Sem Idealize.ShloMosaic.StableHlo

variable {F : FTy → Type} [FloatOps F]

/-! ## Each stretch of host operations, from ANY contents `W` of the buffers -/

variable (W : Valuation τ sig (Elt F))

/-! ### Before the first kernel -/

theorem pre_v0 : StableHlo.after hostOps0 W (Proc.devRef .tc main_v0)
    = shapeCast S100000x256 (W (Proc.devRef .tc main_arg2)) Facts₀.shapeCasts_S3200000x8_S100000x256 := by
  after_results <;> rfl
theorem pre_v1 : StableHlo.after hostOps0 W (Proc.devRef .tc main_v1) = truncf .bf16 (W (Proc.devRef .tc main_arg3)) Facts₀.bitsLt_bf16_f32 := by
  after_results <;> rfl
theorem pre_v2 : StableHlo.after hostOps0 W (Proc.devRef .tc main_v2) = truncf .bf16 (W (Proc.devRef .tc main_arg5)) Facts₀.bitsLt_bf16_f32 := by
  after_results <;> rfl
theorem pre_v3 : StableHlo.after hostOps0 W (Proc.devRef .tc main_v3) = truncf .bf16 (W (Proc.devRef .tc main_arg7)) Facts₀.bitsLt_bf16_f32 := by
  after_results <;> rfl
theorem pre_v4 : StableHlo.after hostOps0 W (Proc.devRef .tc main_v4) = truncf .bf16 (W (Proc.devRef .tc main_arg9)) Facts₀.bitsLt_bf16_f32 := by
  after_results <;> rfl
theorem pre_v5 : StableHlo.after hostOps0 W (Proc.devRef .tc main_v5) = shapeCast S1x256 (W (Proc.devRef .tc main_arg4)) Facts₀.shapeCasts_S256_S1x256 := by
  after_results <;> rfl
theorem pre_v6 : StableHlo.after hostOps0 W (Proc.devRef .tc main_v6) = shapeCast S1x256 (W (Proc.devRef .tc main_arg6)) Facts₀.shapeCasts_S256_S1x256 := by
  after_results <;> rfl
theorem pre_v7 : StableHlo.after hostOps0 W (Proc.devRef .tc main_v7) = shapeCast S1x256 (W (Proc.devRef .tc main_arg8)) Facts₀.shapeCasts_S256_S1x256 := by
  after_results <;> rfl
theorem pre_v8 : StableHlo.after hostOps0 W (Proc.devRef .tc main_v8) = shapeCast S1x5 (W (Proc.devRef .tc main_arg10)) Facts₀.shapeCasts_S5_S1x5 := by
  after_results <;> rfl

/-- The arguments the later operations read are not written before the first kernel. -/
theorem pre_keep : ∀ b ∈ ([main_arg1, main_arg11, main_arg12, main_arg13, main_arg14, main_arg15, main_arg16, main_arg17, main_arg18] : List (Ref sig .tc)),
    StableHlo.after hostOps0 W (Proc.devRef .tc b) = W (Proc.devRef .tc b) := by
  intro b hb
  simp only [List.mem_cons, List.not_mem_nil, or_false] at hb
  rcases hb with rfl | rfl | rfl | rfl | rfl | rfl | rfl | rfl | rfl <;> after_results

/-! ### Between the kernels -/

theorem cut_v11 : StableHlo.after hostOps1 W (Proc.devRef .tc main_v11) = ends (W (Proc.devRef .tc main_arg1)) := by
  after_results <;> rfl

theorem cut_keep : ∀ b ∈ ([main_v9, main_arg11, main_arg12, main_arg13, main_arg14, main_arg15, main_arg16, main_arg17, main_arg18] : List (Ref sig .tc)),
    StableHlo.after hostOps1 W (Proc.devRef .tc b) = W (Proc.devRef .tc b) := by
  intro b hb
  simp only [List.mem_cons, List.not_mem_nil, or_false] at hb
  rcases hb with rfl | rfl | rfl | rfl | rfl | rfl | rfl | rfl | rfl <;> after_results

set_option maxHeartbeats 4000000 in
theorem mid_keep : ∀ b ∈ ([main_arg11, main_arg12, main_arg13, main_arg14, main_arg15, main_arg16, main_arg17, main_arg18] : List (Ref sig .tc)),
    StableHlo.after hostOps1_1 W (Proc.devRef .tc b) = W (Proc.devRef .tc b) := by
  intro b hb
  simp only [List.mem_cons, List.not_mem_nil, or_false] at hb
  rcases hb with rfl | rfl | rfl | rfl | rfl | rfl | rfl | rfl <;> after_results

/-- A buffer's contents read or written at the buffer's own type are the contents. -/
theorem ofBuf_v11 (p : main_v11.ty = ⟨S3200000, .i32⟩) (q r) (v : main_v11.ty.Contents (Elt F)) :
    (TRef.of main_v11 p q r : TRef sig ⟨S3200000, .i32⟩).ofBuf (Val := Elt F) v = v := rfl
theorem ofBuf_v9 (p : main_v9.ty = ⟨S100000x5, .f32⟩) (q r) (v : main_v9.ty.Contents (Elt F)) :
    (TRef.of main_v9 p q r : TRef sig ⟨S100000x5, .f32⟩).ofBuf (Val := Elt F) v = v := rfl
theorem toBuf_v12 (p : main_v12.ty = ⟨S3200000x5, .f32⟩) (q r) (v : FVec F S3200000x5 .f32) :
    (TRef.of main_v12 p q r : TRef sig ⟨S3200000x5, .f32⟩).toBuf (Val := Elt F) v = v := rfl

set_option maxHeartbeats 4000000 in
/-- The gather between the kernels: the masked rows of the table at the wrapped edge ends. -/
theorem mid_v12 : StableHlo.after hostOps1_1 W (Proc.devRef .tc main_v12)
    = take (W (Proc.devRef .tc main_v9)) (W (Proc.devRef .tc main_v11)) := by
  after_results
  simp only [Cert.Lib.ofBuf_toBuf, ofBuf_v11, ofBuf_v9, toBuf_v12]
  unfold take rows inside starts wrapped
  rfl

theorem post_v13 : StableHlo.after hostOps1_2 W (Proc.devRef .tc main_v13)
    = shapeCast S100000x160 (W (Proc.devRef .tc main_v12)) Facts₀.shapeCasts_S3200000x5_S100000x160 := by
  after_results <;> rfl
theorem post_v14 : StableHlo.after hostOps1_2 W (Proc.devRef .tc main_v14) = truncf .bf16 (W (Proc.devRef .tc main_arg11)) Facts₀.bitsLt_bf16_f32 := by
  after_results <;> rfl
theorem post_v15 : StableHlo.after hostOps1_2 W (Proc.devRef .tc main_v15) = truncf .bf16 (W (Proc.devRef .tc main_arg13)) Facts₀.bitsLt_bf16_f32 := by
  after_results <;> rfl
theorem post_v16 : StableHlo.after hostOps1_2 W (Proc.devRef .tc main_v16) = truncf .bf16 (W (Proc.devRef .tc main_arg15)) Facts₀.bitsLt_bf16_f32 := by
  after_results <;> rfl
theorem post_v17 : StableHlo.after hostOps1_2 W (Proc.devRef .tc main_v17) = truncf .bf16 (W (Proc.devRef .tc main_arg17)) Facts₀.bitsLt_bf16_f32 := by
  after_results <;> rfl
theorem post_v18 : StableHlo.after hostOps1_2 W (Proc.devRef .tc main_v18) = shapeCast S1x256 (W (Proc.devRef .tc main_arg12)) Facts₀.shapeCasts_S256_S1x256 := by
  after_results <;> rfl
theorem post_v19 : StableHlo.after hostOps1_2 W (Proc.devRef .tc main_v19) = shapeCast S1x256 (W (Proc.devRef .tc main_arg14)) Facts₀.shapeCasts_S256_S1x256 := by
  after_results <;> rfl
theorem post_v20 : StableHlo.after hostOps1_2 W (Proc.devRef .tc main_v20) = shapeCast S1x256 (W (Proc.devRef .tc main_arg16)) Facts₀.shapeCasts_S256_S1x256 := by
  after_results <;> rfl
theorem post_v21 : StableHlo.after hostOps1_2 W (Proc.devRef .tc main_v21) = shapeCast S1x1 (W (Proc.devRef .tc main_arg18)) Facts₀.shapeCasts_S1_S1x1 := by
  after_results <;> rfl

/-! ### After the second kernel -/

theorem last_v23 : StableHlo.after hostOps2 W (Proc.devRef .tc main_v23)
    = shapeCast S100000 (W (Proc.devRef .tc main_v22)) Facts₀.shapeCasts_S100000x1_S100000 := by
  after_results <;> rfl

end Cert.KernelIdeal.Glue

end
-- ==== Proof.Bridge.lean ====
/-
  Two changes of spelling that do not change a value over the extended reals: a weight matrix rounded to a
  narrower float format is the matrix (a change of format is the identity there), and a bias vector
  reshaped to one row, read along that row, is the vector.
-/
import Idealize.ShloMosaic.Lib.Pipeline.Value
import proofs.«417367_j37452114821373_1_alg».proof.Proof.Layer

noncomputable section

namespace Cert.Net

open Idealize.ShloMosaic Idealize.ShloMosaic.ValueIdx

variable {K N : ℕ}

/-- Rounding to the narrower format keeps every entry. -/
theorem mat_truncf (w : FVec Ideal ⟨2, ![K, N]⟩ .f32) (h : FTy.bf16.bits < FTy.f32.bits) :
    mat (truncf .bf16 w h) = mat w := rfl

/-- The one row of the reshaped vector is the vector. -/
theorem row0_shapeCast (b : FVec Ideal ⟨1, ![N]⟩ .f32) (h : (⟨1, ![N]⟩ : Shape).ShapeCasts ⟨2, ![1, N]⟩) :
    row0 (shapeCast ⟨2, ![1, N]⟩ b h) = vec b := by
  funext j
  show shapeCast ⟨2, ![1, N]⟩ b h (ix2 0 j) = b (ix1 j)
  refine (shapeCast_addUnit_apply ![N] b h (ix2 0 j)).trans (congrArg b (funext fun a => ?_))
  match a with
  | ⟨0, _⟩ => rfl

end Cert.Net

end
-- ==== Proof.KValue.lean ====
/-
  The kernel program's result as a function of its arguments.

  Through the run's segment boundaries: the first kernel leaves the network of every row of the regrouped
  edge attributes (a [100000, 5] table); the host gathers the table's rows by the edge ends — under the
  precondition every end is a row of the table, so no row is replaced by the fill pattern —, regroups
  them 160 to a row; the second kernel leaves the network of every such row; its one column is the result.
  The weights the kernels read are the arguments rounded to a narrower format, which changes nothing
  over the extended reals, and the bias rows are the argument vectors.
-/
import proofs.«417367_j37452114821373_1_alg».proof.Proof.RunMain
import proofs.«417367_j37452114821373_1_alg».proof.Proof.Region0
import proofs.«417367_j37452114821373_1_alg».proof.Proof.Region1
import proofs.«417367_j37452114821373_1_alg».proof.Proof.InRange
import proofs.«417367_j37452114821373_1_alg».proof.Proof.HostGlue
import proofs.«417367_j37452114821373_1_alg».proof.Proof.Bridge

set_option maxRecDepth 16384

noncomputable section

namespace Cert.KernelIdeal.KValue

open Cert.KernelIdeal Cert.KernelIdeal.Gen Cert.KernelIdeal.Take Cert.KernelIdeal.Glue Cert.Net
open Idealize.ShloMosaic Idealize.ShloMosaic.TcCoe Idealize.SL.Sem Idealize.ShloMosaic.StableHlo

variable [Facts]

/-- The first stage's table: the network of every row of the edge attributes regrouped 256 to a row. -/
def table (a2 : FVec Ideal S3200000x8 .f32) (a3 : FVec Ideal S256x256 .f32) (a4 : FVec Ideal S256 .f32)
    (a5 : FVec Ideal S256x256 .f32) (a6 : FVec Ideal S256 .f32) (a7 : FVec Ideal S256x256 .f32) (a8 : FVec Ideal S256 .f32)
    (a9 : FVec Ideal S256x5 .f32) (a10 : FVec Ideal S5 .f32) : FVec Ideal S100000x5 .f32 :=
  mlp4Rows (shapeCast S100000x256 a2 Facts₀.shapeCasts_S3200000x8_S100000x256)
    (mat a3) (vec a4) (mat a5) (vec a6) (mat a7) (vec a8) (mat a9) (vec a10)

/-- The result: the second stage on the table's rows gathered by the edge ends and regrouped 160 to a row. -/
def result (a1 : IVec S2x3200000 32) (a2 : FVec Ideal S3200000x8 .f32)
    (a3 : FVec Ideal S256x256 .f32) (a4 : FVec Ideal S256 .f32) (a5 : FVec Ideal S256x256 .f32) (a6 : FVec Ideal S256 .f32)
    (a7 : FVec Ideal S256x256 .f32) (a8 : FVec Ideal S256 .f32) (a9 : FVec Ideal S256x5 .f32) (a10 : FVec Ideal S5 .f32)
    (a11 : FVec Ideal S160x256 .f32) (a12 : FVec Ideal S256 .f32) (a13 : FVec Ideal S256x256 .f32) (a14 : FVec Ideal S256 .f32)
    (a15 : FVec Ideal S256x256 .f32) (a16 : FVec Ideal S256 .f32) (a17 : FVec Ideal S256x1 .f32) (a18 : FVec Ideal S1 .f32) :
    FVec Ideal S100000 .f32 :=
  shapeCast S100000
    (mlp4Rows (shapeCast S100000x160 (rows (table a2 a3 a4 a5 a6 a7 a8 a9 a10) (ends a1)) Facts₀.shapeCasts_S3200000x5_S100000x160)
      (mat a11) (vec a12) (mat a13) (vec a14) (mat a15) (vec a16) (mat a17) (vec a18))
    Facts₀.shapeCasts_S100000x1_S100000

end Cert.KernelIdeal.KValue

namespace Cert.KernelIdeal.KValue

open Cert.KernelIdeal Cert.KernelIdeal.Gen Cert.KernelIdeal.Take Cert.KernelIdeal.Glue Cert.Net
open Idealize.ShloMosaic Idealize.ShloMosaic.TcCoe Idealize.SL.Sem Idealize.ShloMosaic.StableHlo

variable [Cert.Pre_finite_inputs.Facts]
variable (m : (ℓ : Loc nD τ sig) → Buf (Elt Ideal) ℓ) (ρ : Dev nD → PrngReg)

/-- The argument arrays, each at its literal type. -/
abbrev A1 (c : Dev nD) : IVec S2x3200000 32 := m ((c : Thread nD τ).loc main_arg1)
abbrev A2 (c : Dev nD) : FVec Ideal S3200000x8 .f32 := m ((c : Thread nD τ).loc main_arg2)
abbrev A3 (c : Dev nD) : FVec Ideal S256x256 .f32 := m ((c : Thread nD τ).loc main_arg3)
abbrev A4 (c : Dev nD) : FVec Ideal S256 .f32 := m ((c : Thread nD τ).loc main_arg4)
abbrev A5 (c : Dev nD) : FVec Ideal S256x256 .f32 := m ((c : Thread nD τ).loc main_arg5)
abbrev A6 (c : Dev nD) : FVec Ideal S256 .f32 := m ((c : Thread nD τ).loc main_arg6)
abbrev A7 (c : Dev nD) : FVec Ideal S256x256 .f32 := m ((c : Thread nD τ).loc main_arg7)
abbrev A8 (c : Dev nD) : FVec Ideal S256 .f32 := m ((c : Thread nD τ).loc main_arg8)
abbrev A9 (c : Dev nD) : FVec Ideal S256x5 .f32 := m ((c : Thread nD τ).loc main_arg9)
abbrev A10 (c : Dev nD) : FVec Ideal S5 .f32 := m ((c : Thread nD τ).loc main_arg10)
abbrev A11 (c : Dev nD) : FVec Ideal S160x256 .f32 := m ((c : Thread nD τ).loc main_arg11)
abbrev A12 (c : Dev nD) : FVec Ideal S256 .f32 := m ((c : Thread nD τ).loc main_arg12)
abbrev A13 (c : Dev nD) : FVec Ideal S256x256 .f32 := m ((c : Thread nD τ).loc main_arg13)
abbrev A14 (c : Dev nD) : FVec Ideal S256 .f32 := m ((c : Thread nD τ).loc main_arg14)
abbrev A15 (c : Dev nD) : FVec Ideal S256x256 .f32 := m ((c : Thread nD τ).loc main_arg15)
abbrev A16 (c : Dev nD) : FVec Ideal S256 .f32 := m ((c : Thread nD τ).loc main_arg16)
abbrev A17 (c : Dev nD) : FVec Ideal S256x1 .f32 := m ((c : Thread nD τ).loc main_arg17)
abbrev A18 (c : Dev nD) : FVec Ideal S1 .f32 := m ((c : Thread nD τ).loc main_arg18)

/-- An argument the later operations read still holds its launch contents when the first kernel has run. -/
theorem W2_arg (c : Dev nD) : ∀ b ∈ ([main_arg1, main_arg11, main_arg12, main_arg13, main_arg14, main_arg15, main_arg16, main_arg17, main_arg18] : List (Ref sig .tc)),
    W2 m ρ c (Proc.devRef .tc b) = m ((c : Thread nD τ).loc b) := by
  intro b hb
  have h0 := pre_keep (W0 m ρ c) b hb
  simp only [List.mem_cons, List.not_mem_nil, or_false] at hb
  rcases hb with rfl | rfl | rfl | rfl | rfl | rfl | rfl | rfl | rfl <;>
    exact (W2_of_ne m ρ c _ (by decide)).trans h0

/-- And when the gather has run. -/
theorem W4_arg (c : Dev nD) : ∀ b ∈ ([main_arg11, main_arg12, main_arg13, main_arg14, main_arg15, main_arg16, main_arg17, main_arg18] : List (Ref sig .tc)),
    W4 m ρ c (Proc.devRef .tc b) = m ((c : Thread nD τ).loc b) := fun b hb =>
  (mid_keep (W3 m ρ c) b hb).trans ((cut_keep (W2 m ρ c) b (List.mem_cons_of_mem _ hb)).trans
    (W2_arg m ρ c b (List.mem_cons_of_mem _ hb)))

/-- The first kernel's output array is the table. -/
theorem table_eq (c : Dev nD) : W2 m ρ c (Proc.devRef .tc main_v9)
    = table (A2 m c) (A3 m c) (A4 m c) (A5 m c) (A6 m c) (A7 m c) (A8 m c) (A9 m c) (A10 m c) := by
  refine (W2_arr m ρ c 9).trans ((Region0.final (V1 m ρ) c).trans ?_)
  have hx : Region0.xs (V1 m ρ) c = shapeCast S100000x256 (A2 m c) Facts₀.shapeCasts_S3200000x8_S100000x256 := pre_v0 (W0 m ρ c)
  have hw0 : Region0.w0 (V1 m ρ) c = truncf .bf16 (A3 m c) Facts₀.bitsLt_bf16_f32 := pre_v1 (W0 m ρ c)
  have hw1 : Region0.w1 (V1 m ρ) c = truncf .bf16 (A5 m c) Facts₀.bitsLt_bf16_f32 := pre_v2 (W0 m ρ c)
  have hw2 : Region0.w2 (V1 m ρ) c = truncf .bf16 (A7 m c) Facts₀.bitsLt_bf16_f32 := pre_v3 (W0 m ρ c)
  have hw3 : Region0.w3 (V1 m ρ) c = truncf .bf16 (A9 m c) Facts₀.bitsLt_bf16_f32 := pre_v4 (W0 m ρ c)
  have hb0 : Region0.b0 (V1 m ρ) c = shapeCast S1x256 (A4 m c) Facts₀.shapeCasts_S256_S1x256 := pre_v5 (W0 m ρ c)
  have hb1 : Region0.b1 (V1 m ρ) c = shapeCast S1x256 (A6 m c) Facts₀.shapeCasts_S256_S1x256 := pre_v6 (W0 m ρ c)
  have hb2 : Region0.b2 (V1 m ρ) c = shapeCast S1x256 (A8 m c) Facts₀.shapeCasts_S256_S1x256 := pre_v7 (W0 m ρ c)
  have hb3 : Region0.b3 (V1 m ρ) c = shapeCast S1x5 (A10 m c) Facts₀.shapeCasts_S5_S1x5 := pre_v8 (W0 m ρ c)
  unfold Region0.G table
  rw [hx, hw0, hw1, hw2, hw3, hb0, hb1, hb2, hb3]
  rw [mat_truncf, mat_truncf, mat_truncf, mat_truncf, row0_shapeCast, row0_shapeCast, row0_shapeCast, row0_shapeCast]

/-- THE RESULT BUFFER at the last boundary, under the precondition on the edge ends. -/
theorem value (c : Dev nD)
    (hpre : Cert.Pre_finite_inputs.fn (F := Ideal) (m ((c : Thread nD τ).loc main_arg0)) (A1 m c) (A2 m c) (A3 m c) (A4 m c) (A5 m c)
      (A6 m c) (A7 m c) (A8 m c) (A9 m c) (A10 m c) (A11 m c) (A12 m c) (A13 m c) (A14 m c) (A15 m c) (A16 m c) (A17 m c) (A18 m c)
      = fun _ => 1#1) :
    W7 m ρ c (Proc.devRef .tc main_v23)
      = result (A1 m c) (A2 m c) (A3 m c) (A4 m c) (A5 m c) (A6 m c) (A7 m c) (A8 m c) (A9 m c) (A10 m c) (A11 m c) (A12 m c)
          (A13 m c) (A14 m c) (A15 m c) (A16 m c) (A17 m c) (A18 m c) := by
  -- the gathered rows
  have h9 : W3 m ρ c (Proc.devRef .tc main_v9) = W2 m ρ c (Proc.devRef .tc main_v9) := cut_keep (W2 m ρ c) main_v9 (by simp)
  have h11 : W3 m ρ c (Proc.devRef .tc main_v11) = ends (A1 m c) :=
    (cut_v11 (W2 m ρ c)).trans (congrArg ends (W2_arg m ρ c main_arg1 (by simp)))
  have h12 : W4 m ρ c (Proc.devRef .tc main_v12)
      = rows (table (A2 m c) (A3 m c) (A4 m c) (A5 m c) (A6 m c) (A7 m c) (A8 m c) (A9 m c) (A10 m c)) (ends (A1 m c)) := by
    refine (mid_v12 (W3 m ρ c)).trans ?_
    rw [h9, h11, table_eq m ρ c]
    exact take_eq_rows_of_pre _ _ _ _ _ _ _ _ _ _ _ _ _ _ _ _ _ _ _ hpre _
  -- the second kernel's arrays as it finds them
  have hx : Region1.xs (V5 m ρ) c = shapeCast S100000x160
      (rows (table (A2 m c) (A3 m c) (A4 m c) (A5 m c) (A6 m c) (A7 m c) (A8 m c) (A9 m c) (A10 m c)) (ends (A1 m c)))
      Facts₀.shapeCasts_S3200000x5_S100000x160 :=
    (post_v13 (W4 m ρ c)).trans (by rw [h12])
  have hw0 : Region1.w0 (V5 m ρ) c = truncf .bf16 (A11 m c) Facts₀.bitsLt_bf16_f32 :=
    (post_v14 (W4 m ρ c)).trans (by rw [W4_arg m ρ c main_arg11 (by simp)])
  have hw1 : Region1.w1 (V5 m ρ) c = truncf .bf16 (A13 m c) Facts₀.bitsLt_bf16_f32 :=
    (post_v15 (W4 m ρ c)).trans (by rw [W4_arg m ρ c main_arg13 (by simp)])
  have hw2 : Region1.w2 (V5 m ρ) c = truncf .bf16 (A15 m c) Facts₀.bitsLt_bf16_f32 :=
    (post_v16 (W4 m ρ c)).trans (by rw [W4_arg m ρ c main_arg15 (by simp)])
  have hw3 : Region1.w3 (V5 m ρ) c = truncf .bf16 (A17 m c) Facts₀.bitsLt_bf16_f32 :=
    (post_v17 (W4 m ρ c)).trans (by rw [W4_arg m ρ c main_arg17 (by simp)])
  have hb0 : Region1.b0 (V5 m ρ) c = shapeCast S1x256 (A12 m c) Facts₀.shapeCasts_S256_S1x256 :=
    (post_v18 (W4 m ρ c)).trans (by rw [W4_arg m ρ c main_arg12 (by simp)])
  have hb1 : Region1.b1 (V5 m ρ) c = shapeCast S1x256 (A14 m c) Facts₀.shapeCasts_S256_S1x256 :=
    (post_v19 (W4 m ρ c)).trans (by rw [W4_arg m ρ c main_arg14 (by simp)])
  have hb2 : Region1.b2 (V5 m ρ) c = shapeCast S1x256 (A16 m c) Facts₀.shapeCasts_S256_S1x256 :=
    (post_v20 (W4 m ρ c)).trans (by rw [W4_arg m ρ c main_arg16 (by simp)])
  have hb3 : Region1.b3 (V5 m ρ) c = shapeCast S1x1 (A18 m c) Facts₀.shapeCasts_S1_S1x1 :=
    (post_v21 (W4 m ρ c)).trans (by rw [W4_arg m ρ c main_arg18 (by simp)])
  -- the second kernel's output array, and its one column
  have h22 : W6 m ρ c (Proc.devRef .tc main_v22) = Region1.G (V5 m ρ) c :=
    (W6_arr m ρ c 9).trans (Region1.final (V5 m ρ) c)
  refine (last_v23 (W6 m ρ c)).trans ?_
  rw [h22]
  unfold Region1.G result
  rw [hx, hw0, hw1, hw2, hw3, hb0, hb1, hb2, hb3]
  rw [mat_truncf, mat_truncf, mat_truncf, mat_truncf, row0_shapeCast, row0_shapeCast, row0_shapeCast, row0_shapeCast]

end Cert.KernelIdeal.KValue

end
-- ==== Proof.RefValue.lean ====
/-
  The reference program's result as the network applied twice.

  The host computes each stage as four layers on the whole array — a `dot_general` plus the bias
  broadcast, under `tanh` three times — and then 1 / (1 + exp (−·)), which over the extended reals is
  the logistic function. Entry (i, j) of a stage is therefore the network of row i of its input, at j.
  Between the stages row 1 of the index pairs, negative words moved up by the table's length, picks
  rows of the first stage's [100000, 5] result.
-/
import proofs.«417367_j37452114821373_1_alg».proof.Proof.Gen.ReferenceIdeal.Run
import proofs.«417367_j37452114821373_1_alg».proof.Proof.Layer
import Idealize.ShloMosaic.Lib.IdealHost

noncomputable section

namespace Cert.Net

open Idealize.ShloMosaic Idealize.ShloMosaic.ValueIdx

/-- 1 / (1 + exp (−x)) entry by entry, the two ones broadcast from a scalar constant. -/
def hostLogistic {s : Shape} (h : (⟨0, ![]⟩ : Shape).BroadcastsInDim s (![] : Fin 0 → Fin s.rank)) (x : FVec Ideal s .f32) :
    FVec Ideal s .f32 :=
  Host.divf (broadcastInDim s ![] h (constant ⟨0, ![]⟩ .f32 0x3F800000#32))
    (addf (broadcastInDim s ![] h (constant ⟨0, ![]⟩ .f32 0x3F800000#32)) (Host.exp (Host.negf x)))

/-- It is the logistic function of each entry: the constant's pattern is the number one. -/
theorem hostLogistic_apply {s : Shape} (h : (⟨0, ![]⟩ : Shape).BroadcastsInDim s (![] : Fin 0 → Fin s.rank)) (x : FVec Ideal s .f32)
    (i : s.Idx) : hostLogistic h x i = Ideal.logistic (x i) := by
  show FloatOps.hostDivf (Ideal.ofBits .f32 0x3F800000#32)
      (FloatOps.addf (Ideal.ofBits .f32 0x3F800000#32) (FloatOps.hostUnary .exp (FloatOps.hostNegf (x i)))) = _
  rw [Ideal.ofBits_one_f32]
  rfl

variable {R K0 K1 K2 K3 K4 : ℕ}

/-- A stage as the host computes it: four layers on the whole array. -/
def hostNet (x : FVec Ideal ⟨2, ![R, K0]⟩ .f32)
    (w0 : FVec Ideal ⟨2, ![K0, K1]⟩ .f32) (b0 : FVec Ideal ⟨1, ![K1]⟩ .f32)
    (w1 : FVec Ideal ⟨2, ![K1, K2]⟩ .f32) (b1 : FVec Ideal ⟨1, ![K2]⟩ .f32)
    (w2 : FVec Ideal ⟨2, ![K2, K3]⟩ .f32) (b2 : FVec Ideal ⟨1, ![K3]⟩ .f32)
    (w3 : FVec Ideal ⟨2, ![K3, K4]⟩ .f32) (b3 : FVec Ideal ⟨1, ![K4]⟩ .f32)
    (h10 : (⟨1, ![K1]⟩ : Shape).BroadcastsInDim ⟨2, ![1, K1]⟩ (![1] : Fin 1 → Fin 2))
    (h20 : (⟨2, ![1, K1]⟩ : Shape).BroadcastsInDim ⟨2, ![R, K1]⟩ (![0, 1] : Fin 2 → Fin 2))
    (h11 : (⟨1, ![K2]⟩ : Shape).BroadcastsInDim ⟨2, ![1, K2]⟩ (![1] : Fin 1 → Fin 2))
    (h21 : (⟨2, ![1, K2]⟩ : Shape).BroadcastsInDim ⟨2, ![R, K2]⟩ (![0, 1] : Fin 2 → Fin 2))
    (h12 : (⟨1, ![K3]⟩ : Shape).BroadcastsInDim ⟨2, ![1, K3]⟩ (![1] : Fin 1 → Fin 2))
    (h22 : (⟨2, ![1, K3]⟩ : Shape).BroadcastsInDim ⟨2, ![R, K3]⟩ (![0, 1] : Fin 2 → Fin 2))
    (h13 : (⟨1, ![K4]⟩ : Shape).BroadcastsInDim ⟨2, ![1, K4]⟩ (![1] : Fin 1 → Fin 2))
    (h23 : (⟨2, ![1, K4]⟩ : Shape).BroadcastsInDim ⟨2, ![R, K4]⟩ (![0, 1] : Fin 2 → Fin 2))
    (hs : (⟨0, ![]⟩ : Shape).BroadcastsInDim ⟨2, ![R, K4]⟩ (![] : Fin 0 → Fin 2)) : FVec Ideal ⟨2, ![R, K4]⟩ .f32 :=
  hostLogistic hs (rpre (Host.tanh (rpre (Host.tanh (rpre (Host.tanh (rpre x w0 b0 h10 h20)) w1 b1 h11 h21)) w2 b2 h12 h22))
    w3 b3 h13 h23)

/-- It is the network of every row. -/
theorem hostNet_eq (x : FVec Ideal ⟨2, ![R, K0]⟩ .f32)
    (w0 : FVec Ideal ⟨2, ![K0, K1]⟩ .f32) (b0 : FVec Ideal ⟨1, ![K1]⟩ .f32)
    (w1 : FVec Ideal ⟨2, ![K1, K2]⟩ .f32) (b1 : FVec Ideal ⟨1, ![K2]⟩ .f32)
    (w2 : FVec Ideal ⟨2, ![K2, K3]⟩ .f32) (b2 : FVec Ideal ⟨1, ![K3]⟩ .f32)
    (w3 : FVec Ideal ⟨2, ![K3, K4]⟩ .f32) (b3 : FVec Ideal ⟨1, ![K4]⟩ .f32)
    (h10 : (⟨1, ![K1]⟩ : Shape).BroadcastsInDim ⟨2, ![1, K1]⟩ (![1] : Fin 1 → Fin 2))
    (h20 : (⟨2, ![1, K1]⟩ : Shape).BroadcastsInDim ⟨2, ![R, K1]⟩ (![0, 1] : Fin 2 → Fin 2))
    (h11 : (⟨1, ![K2]⟩ : Shape).BroadcastsInDim ⟨2, ![1, K2]⟩ (![1] : Fin 1 → Fin 2))
    (h21 : (⟨2, ![1, K2]⟩ : Shape).BroadcastsInDim ⟨2, ![R, K2]⟩ (![0, 1] : Fin 2 → Fin 2))
    (h12 : (⟨1, ![K3]⟩ : Shape).BroadcastsInDim ⟨2, ![1, K3]⟩ (![1] : Fin 1 → Fin 2))
    (h22 : (⟨2, ![1, K3]⟩ : Shape).BroadcastsInDim ⟨2, ![R, K3]⟩ (![0, 1] : Fin 2 → Fin 2))
    (h13 : (⟨1, ![K4]⟩ : Shape).BroadcastsInDim ⟨2, ![1, K4]⟩ (![1] : Fin 1 → Fin 2))
    (h23 : (⟨2, ![1, K4]⟩ : Shape).BroadcastsInDim ⟨2, ![R, K4]⟩ (![0, 1] : Fin 2 → Fin 2))
    (hs : (⟨0, ![]⟩ : Shape).BroadcastsInDim ⟨2, ![R, K4]⟩ (![] : Fin 0 → Fin 2)) :
    hostNet x w0 b0 w1 b1 w2 b2 w3 b3 h10 h20 h11 h21 h12 h22 h13 h23 hs
      = mlp4Rows x (mat w0) (vec b0) (mat w1) (vec b1) (mat w2) (vec b2) (mat w3) (vec b3) := by
  funext i
  obtain ⟨p, q, rfl⟩ : ∃ (p : Fin R) (q : Fin K4), i = ix2 p q := ⟨i 0, i 1, eq_ix2 i⟩
  unfold hostNet
  rw [hostLogistic_apply, rpre_apply, row_tanh_rpre, row_tanh_rpre, row_tanh_rpre]
  rfl

end Cert.Net

namespace Cert.ReferenceIdeal.RefValue

open Cert.ReferenceIdeal Cert.Net Idealize.ShloMosaic Idealize.ShloMosaic.ValueIdx

variable [Facts]

/-- The start indices of the gather: row 1 of the index pairs, a negative word moved up by the table's length. -/
def starts (a1 : IVec S2x3200000 32) : IVec S3200000x1 32 :=
  broadcastInDim S3200000x1 ![0] Facts₀.bcast_S3200000_S3200000x1_0
    (select
      (cmpi .slt (shapeCast S3200000 (extractStridedSlice S1x3200000 ![1, 0] a1 Facts₀.slices_S2x3200000_S1x3200000_1_0) Facts₀.shapeCasts_S1x3200000_S3200000)
        (broadcastInDim S3200000 ![] Facts₀.bcast_S_S3200000 (constantI S_ 32 0#32)))
      (addi (shapeCast S3200000 (extractStridedSlice S1x3200000 ![1, 0] a1 Facts₀.slices_S2x3200000_S1x3200000_1_0) Facts₀.shapeCasts_S1x3200000_S3200000)
        (broadcastInDim S3200000 ![] Facts₀.bcast_S_S3200000 (constantI S_ 32 100000#32)))
      (shapeCast S3200000 (extractStridedSlice S1x3200000 ![1, 0] a1 Facts₀.slices_S2x3200000_S1x3200000_1_0) Facts₀.shapeCasts_S1x3200000_S3200000))

/-- The reference program's result as a function of its arguments: the first stage on the edge attributes regrouped
    256 to a row, its rows gathered by the edge ends and regrouped 160 to a row, the second stage, one column. -/
def result (a1 : IVec S2x3200000 32) (a2 : FVec Ideal S3200000x8 .f32)
    (a3 : FVec Ideal S256x256 .f32) (a4 : FVec Ideal S256 .f32) (a5 : FVec Ideal S256x256 .f32) (a6 : FVec Ideal S256 .f32)
    (a7 : FVec Ideal S256x256 .f32) (a8 : FVec Ideal S256 .f32) (a9 : FVec Ideal S256x5 .f32) (a10 : FVec Ideal S5 .f32)
    (a11 : FVec Ideal S160x256 .f32) (a12 : FVec Ideal S256 .f32) (a13 : FVec Ideal S256x256 .f32) (a14 : FVec Ideal S256 .f32)
    (a15 : FVec Ideal S256x256 .f32) (a16 : FVec Ideal S256 .f32) (a17 : FVec Ideal S256x1 .f32) (a18 : FVec Ideal S1 .f32) :
    FVec Ideal S100000 .f32 :=
  shapeCast S100000
    (mlp4Rows
      (shapeCast S100000x160
        (Host.gather gather_S100000x5_S3200000x1_S3200000x5_1_0_n_n_0_1_15
          (mlp4Rows (shapeCast S100000x256 a2 Facts₀.shapeCasts_S3200000x8_S100000x256)
            (mat a3) (vec a4) (mat a5) (vec a6) (mat a7) (vec a8) (mat a9) (vec a10))
          (starts a1))
        Facts₀.shapeCasts_S3200000x5_S100000x160)
      (mat a11) (vec a12) (mat a13) (vec a14) (mat a15) (vec a16) (mat a17) (vec a18))
    Facts₀.shapeCasts_S100000x1_S100000

/-- The run's composed term is that function. -/
theorem run_term_eq (a1 : IVec S2x3200000 32) (a2 : FVec Ideal S3200000x8 .f32)
    (a3 : FVec Ideal S256x256 .f32) (a4 : FVec Ideal S256 .f32) (a5 : FVec Ideal S256x256 .f32) (a6 : FVec Ideal S256 .f32)
    (a7 : FVec Ideal S256x256 .f32) (a8 : FVec Ideal S256 .f32) (a9 : FVec Ideal S256x5 .f32) (a10 : FVec Ideal S5 .f32)
    (a11 : FVec Ideal S160x256 .f32) (a12 : FVec Ideal S256 .f32) (a13 : FVec Ideal S256x256 .f32) (a14 : FVec Ideal S256 .f32)
    (a15 : FVec Ideal S256x256 .f32) (a16 : FVec Ideal S256 .f32) (a17 : FVec Ideal S256x1 .f32) (a18 : FVec Ideal S1 .f32) :
    shapeCast S100000
      (hostNet (R := 100000) (K0 := 160) (K1 := 256) (K2 := 256) (K3 := 256) (K4 := 1)
        (shapeCast S100000x160
          (Host.gather gather_S100000x5_S3200000x1_S3200000x5_1_0_n_n_0_1_15
            (hostNet (R := 100000) (K0 := 256) (K1 := 256) (K2 := 256) (K3 := 256) (K4 := 5)
              (shapeCast S100000x256 a2 Facts₀.shapeCasts_S3200000x8_S100000x256) a3 a4 a5 a6 a7 a8 a9 a10
              Facts₀.bcast_S256_S1x256_1 Facts₀.bcast_S1x256_S100000x256_0_1 Facts₀.bcast_S256_S1x256_1 Facts₀.bcast_S1x256_S100000x256_0_1
              Facts₀.bcast_S256_S1x256_1 Facts₀.bcast_S1x256_S100000x256_0_1 Facts₀.bcast_S5_S1x5_1 Facts₀.bcast_S1x5_S100000x5_0_1
              Facts₀.bcast_S_S100000x5)
            (starts a1))
          Facts₀.shapeCasts_S3200000x5_S100000x160)
        a11 a12 a13 a14 a15 a16 a17 a18
        Facts₀.bcast_S256_S1x256_1 Facts₀.bcast_S1x256_S100000x256_0_1 Facts₀.bcast_S256_S1x256_1 Facts₀.bcast_S1x256_S100000x256_0_1
        Facts₀.bcast_S256_S1x256_1 Facts₀.bcast_S1x256_S100000x256_0_1 Facts₀.bcast_S1_S1x1_1 Facts₀.bcast_S1x1_S100000x1_0_1
        Facts₀.bcast_S_S100000x1)
      Facts₀.shapeCasts_S100000x1_S100000
      = result a1 a2 a3 a4 a5 a6 a7 a8 a9 a10 a11 a12 a13 a14 a15 a16 a17 a18 := by
  unfold result
  rw [hostNet_eq, hostNet_eq]

end Cert.ReferenceIdeal.RefValue

end
-- ==== Proof.lean ====
/-
  The certificate's claim: two four-layer networks with a gather between them.

  Both programs compute, for each of 100000 nodes, a four-layer network (tanh, tanh, tanh, logistic)
  of the node's 32 edge attributes laid side by side; gather, for each of the 3.2 million edges, the
  row of that [100000, 5] table the edge's end names; and apply a second four-layer network to each
  node's 32 gathered rows laid side by side. The kernel program runs each network as a pipelined kernel
  over blocks of 2000 rows with weights rounded to a narrower format; the reference runs it as
  whole-array host operations. Over the extended reals the rounding is the identity, a product into a
  zero accumulator and a `dot_general` are the same sum, and the two spellings of the logistic function
  are one function, so each stage is the same function of its input rows. The kernel program replaces a
  gathered row whose index lies outside the table by a fill pattern where the reference clamps the
  index; under the precondition that every edge end lies in [-100000, 100000) no index lies outside,
  and the two results are the same function of the arguments.
-/
import proofs.«417367_j37452114821373_1_alg».proof.Defs
import proofs.«417367_j37452114821373_1_alg».proof.Proof.Gen.Kernel
import proofs.«417367_j37452114821373_1_alg».proof.Proof.Gen.Kernel.Skeleton
import proofs.«417367_j37452114821373_1_alg».proof.Proof.Gen.Kernel.Launch
import proofs.«417367_j37452114821373_1_alg».proof.Proof.Gen.Kernel.Points
import proofs.«417367_j37452114821373_1_alg».proof.Proof.Gen.Kernel.Frame
import proofs.«417367_j37452114821373_1_alg».proof.Proof.Gen.KernelIdeal
import proofs.«417367_j37452114821373_1_alg».proof.Proof.Gen.KernelIdeal.Skeleton
import proofs.«417367_j37452114821373_1_alg».proof.Proof.Gen.KernelIdeal.Launch
import proofs.«417367_j37452114821373_1_alg».proof.Proof.Gen.KernelIdeal.Points
import proofs.«417367_j37452114821373_1_alg».proof.Proof.Gen.KernelIdeal.Frame
import proofs.«417367_j37452114821373_1_alg».proof.Proof.Gen.ReferenceIdeal
import proofs.«417367_j37452114821373_1_alg».proof.Proof.Gen.ReferenceIdeal.Run
import proofs.«417367_j37452114821373_1_alg».proof.Proof.Gen.Pre_finite_inputs
import proofs.«417367_j37452114821373_1_alg».proof.Proof.KValue
import proofs.«417367_j37452114821373_1_alg».proof.Proof.RefValue
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two programs' result functions are one function of the arguments: the same network of the same rows, the
    same gather at the same start indices. -/
theorem result_eq (a1 : IVec Cert.KernelIdeal.S2x3200000 32) (a2 : FVec Ideal Cert.KernelIdeal.S3200000x8 .f32)
    (a3 : FVec Ideal Cert.KernelIdeal.S256x256 .f32) (a4 : FVec Ideal Cert.KernelIdeal.S256 .f32)
    (a5 : FVec Ideal Cert.KernelIdeal.S256x256 .f32) (a6 : FVec Ideal Cert.KernelIdeal.S256 .f32)
    (a7 : FVec Ideal Cert.KernelIdeal.S256x256 .f32) (a8 : FVec Ideal Cert.KernelIdeal.S256 .f32)
    (a9 : FVec Ideal Cert.KernelIdeal.S256x5 .f32) (a10 : FVec Ideal Cert.KernelIdeal.S5 .f32)
    (a11 : FVec Ideal Cert.KernelIdeal.S160x256 .f32) (a12 : FVec Ideal Cert.KernelIdeal.S256 .f32)
    (a13 : FVec Ideal Cert.KernelIdeal.S256x256 .f32) (a14 : FVec Ideal Cert.KernelIdeal.S256 .f32)
    (a15 : FVec Ideal Cert.KernelIdeal.S256x256 .f32) (a16 : FVec Ideal Cert.KernelIdeal.S256 .f32)
    (a17 : FVec Ideal Cert.KernelIdeal.S256x1 .f32) (a18 : FVec Ideal Cert.KernelIdeal.S1 .f32) :
    Cert.ReferenceIdeal.RefValue.result a1 a2 a3 a4 a5 a6 a7 a8 a9 a10 a11 a12 a13 a14 a15 a16 a17 a18
      = Cert.KernelIdeal.KValue.result a1 a2 a3 a4 a5 a6 a7 a8 a9 a10 a11 a12 a13 a14 a15 a16 a17 a18 := rfl

theorem algebraic : Cert.algebraic_KernelIdeal_ReferenceIdeal := by
  intro m ρ m' ρ' hpre hagree
  refine ⟨fun c => Cert.KernelIdeal.KValue.result (Cert.KernelIdeal.KValue.A1 m c) (Cert.KernelIdeal.KValue.A2 m c) (Cert.KernelIdeal.KValue.A3 m c) (Cert.KernelIdeal.KValue.A4 m c) (Cert.KernelIdeal.KValue.A5 m c) (Cert.KernelIdeal.KValue.A6 m c) (Cert.KernelIdeal.KValue.A7 m c) (Cert.KernelIdeal.KValue.A8 m c) (Cert.KernelIdeal.KValue.A9 m c) (Cert.KernelIdeal.KValue.A10 m c) (Cert.KernelIdeal.KValue.A11 m c) (Cert.KernelIdeal.KValue.A12 m c) (Cert.KernelIdeal.KValue.A13 m c) (Cert.KernelIdeal.KValue.A14 m c) (Cert.KernelIdeal.KValue.A15 m c) (Cert.KernelIdeal.KValue.A16 m c) (Cert.KernelIdeal.KValue.A17 m c) (Cert.KernelIdeal.KValue.A18 m c), ?_, ?_⟩
  · exact (θ_run Cert.KernelIdeal.defs _ _).mono
      (fun r h c => ⟨(h c).1.trans (Cert.KernelIdeal.KValue.value m ρ c (hpre c)), (h c).2⟩)
      (Cert.KernelIdeal.Gen.run_main m ρ)
  · refine (θ_run Cert.ReferenceIdeal.defs _ _).mono (fun r h c => ⟨(h c).1.trans ?_, (h c).2⟩)
      (Cert.ReferenceIdeal.Value.run (F := Ideal) m' ρ')
    obtain ⟨-, h1, h2, h3, h4, h5, h6, h7, h8, h9, h10, h11, h12, h13, h14, h15, h16, h17, h18⟩ := hagree c
    rw [h1, h2, h3, h4, h5, h6, h7, h8, h9, h10, h11, h12, h13, h14, h15, h16, h17, h18]
    exact (Cert.ReferenceIdeal.RefValue.run_term_eq _ _ _ _ _ _ _ _ _ _ _ _ _ _ _ _ _ _).trans (result_eq _ _ _ _ _ _ _ _ _ _ _ _ _ _ _ _ _ _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
